-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x16 : Shape := ⟨2, ![4096, 16]⟩
abbrev S16 : Shape := ⟨1, ![16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16 : S_.BroadcastsInDim S16 (![] : Fin 0 → Fin S16.rank)
  reducesTo_S16_S_d0 : S16.ReducesTo [0] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096x16 .f32) (main_arg3 : FVec F S16 .f32) (main_arg4 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096x16 : Shape := ⟨2, ![4096, 16]⟩
abbrev S16 : Shape := ⟨1, ![16]⟩
abbrev S16x4096 : Shape := ⟨2, ![16, 4096]⟩
abbrev S1x16 : Shape := ⟨2, ![1, 16]⟩
abbrev S512x512 : Shape := ⟨2, ![512, 512]⟩
abbrev S512x16 : Shape := ⟨2, ![512, 16]⟩
abbrev S16x512 : Shape := ⟨2, ![16, 512]⟩
abbrev S1024x1024 : Shape := ⟨2, ![1024, 1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x16, .f32⟩
  | .hbm, ⟨3, _⟩ => ⟨S16, .f32⟩
  | .hbm, ⟨4, _⟩ => ⟨S16x4096, .f32⟩
  | .hbm, ⟨5, _⟩ => ⟨S1x16, .f32⟩
  | .hbm, ⟨6, _⟩ => ⟨S4096x16, .f32⟩
  | .hbm, ⟨7, _⟩ => ⟨S4096x16, .f32⟩
  | .hbm, ⟨8, _⟩ => ⟨S4096x4096, .bf16⟩
  | .hbm, ⟨9, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S512x16, .f32⟩
  | .local _ .vmem, ⟨3, _⟩ => ⟨S512x16, .f32⟩
  | .local _ .vmem, ⟨4, _⟩ => ⟨S16x512, .f32⟩
  | .local _ .vmem, ⟨5, _⟩ => ⟨S16x512, .f32⟩
  | .local _ .vmem, ⟨6, _⟩ => ⟨S512x512, .bf16⟩
  | .local _ .vmem, ⟨7, _⟩ => ⟨S512x512, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16x512_S16x512_0_0 : ∀ a, (![0, 0] : Fin 2 → Nat) a + S16x512.size a ≤ S16x512.size a
  h_S16x512 : 0 < S16x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x16_S16x512_S512x512_1_0_0_1_n_n_wf : DotDims.WF S512x16 S16x512 S512x512 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S4096x16.size a
  hwx0_1 : ∀ i : grid0.Coords, EltTy.bits .f32 = 32 ∨ (Rect.block (s := S4096x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .bf16 = 32 ∨ (Rect.block (s := S4096x4096) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x4096.size a
  hwx1_2 : ∀ i : grid1.Coords, EltTy.bits .f32 = 32 ∨ (Rect.block (s := S8192x4096) S1024x1024.size (cc1_transform_2 i) (hinb1_2 i)).WholeWords (EltTy.packing .f32)

variable [Facts₀]

def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x16 : Shape := ⟨2, ![4096, 16]⟩
abbrev S16 : Shape := ⟨1, ![16]⟩
abbrev S16x4096 : Shape := ⟨2, ![16, 4096]⟩
abbrev S1x16 : Shape := ⟨2, ![1, 16]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x16, .f32⟩
  | .hbm, ⟨3, _⟩ => ⟨S16, .f32⟩
  | .hbm, ⟨4, _⟩ => ⟨S16x4096, .f32⟩
  | .hbm, ⟨5, _⟩ => ⟨S1x16, .f32⟩
  | .hbm, ⟨6, _⟩ => ⟨S4096x16, .f32⟩
  | .hbm, ⟨7, _⟩ => ⟨S4096x16, .f32⟩
  | .hbm, ⟨8, _⟩ => ⟨S4096x4096, .f32⟩
  | .hbm, ⟨9, _⟩ => ⟨S4096x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  dot_S4096x16_S16x4096_S4096x4096_1_0_0_1_n_n_wf : DotDims.WF S4096x16 S16x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.Region0.lean ====
/-
  The first pallas_call (the weight build), as one region of @main: W = orig_weight + (u·s) @ vt, one
  512×512 block of W per grid point (an 8×8 grid). Each point loads the three input blocks whole, forms
  ow_blk + matmul(us_blk, vt_blk, 0), and stores the whole output block; nothing is carried between
  points. This module states, at ANY buffer contents `V` the region is entered with and at any float
  instance, what each staging buffer holds after the body (the inputs their blocks, the output the one
  stored piece), the body's triple, and the pipeline's proof data with its body obligation.
-/
import proofs.«139975_j1829656068759_1_alg».proof.Proof.Gen.Kernel.Launch
import proofs.«139975_j1829656068759_1_alg».proof.Proof.Gen.Kernel.Skeleton
import proofs.«139975_j1829656068759_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, which the run instantiates
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (when it is
    not fetched the block index has not moved): window 0, the orig_weight block (i, j). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1, the scaled-u block (i, 0): refetched only when i moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2, the vt block (0, j). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S512x512 := Rect.unit (s := S512x512) ![0, 0] S512x512.size inb_S512x512_S512x512_0_0
abbrev rU0 : Rect S512x16 := Rect.unit (s := S512x16) ![0, 0] S512x16.size inb_S512x16_S512x16_0_0
abbrev rT0 : Rect S16x512 := Rect.unit (s := S16x512) ![0, 0] S16x512.size inb_S16x512_S16x512_0_0

/-! ## What the body leaves in the output window's buffer -/

/-- The W block after the body: its one store, of the body's arithmetic on the three loaded blocks
    (`x0` the orig_weight block, `x1` the scaled-u block, `x2` the vt block). -/
def out0_3 (x0 : Vec F S512x512 .f32) (x1 : Vec F S512x16 .f32) (x2 : Vec F S16x512 .f32) : Vec F S512x512 .bf16 :=
  View.canon [⟨rA0, k0_pay1 (View.ld x1 rU0) (View.ld x2 rT0) (View.ld x0 rA0)⟩]

/-- The one store covers the buffer. -/
theorem cover0_3 (p0 : Vec F S512x512 .bf16) (y : S512x512.Idx) :
    ∃ pc ∈ ([⟨rA0, p0⟩] : List (View.Piece (Elt F) S512x512 .bf16)), y ∈ pc.1.set :=
  View.cover_of_tiled [⟨rA0, p0⟩] S512x512.size (by rfl) y

/-! ## The body's triple -/

set_option maxHeartbeats 1000000 in
/-- The body on whole staging memrefs — the inputs' at contents `x0`, `x1`, `x2`, the output's at anything — runs to
    the continuation holding the inputs' as they were and the output's at `out0_3` of them. -/
theorem sound_kernel0 (c : Dev nD) (E : Set ℕ) (i : grid0.Coords) (arg2 : Memref sig .tc .vmem S512x512 .f32) (harg2 : arg2.IsWhole) (arg3 : Memref sig .tc .vmem S512x16 .f32) (harg3 : arg3.IsWhole)
    (arg4 : Memref sig .tc .vmem S16x512 .f32) (harg4 : arg4.IsWhole) (arg5 : Memref sig .tc .vmem S512x512 .bf16) (harg5 : arg5.IsWhole)
    (x0 : Vec F S512x512 .f32) (x1 : Vec F S512x16 .f32) (x2 : Vec F S16x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__build_w_kernel i arg2 harg2 arg3 harg3 arg4 harg4 arg5 harg5) K := by
  simp only [cc0__build_w_kernel_eq_skeleton]; unfold cc0__build_w_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t`
    each input's buffer at its block and the output's at `out0_3` of the input blocks; the invariant holds only
    what the body never touches (the other scoped buffers, the generator register); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1Defs.lean ====
/-
  The second pallas_call (the big matmul), what its three control cases share. The grid is 8 × 4 × 4, the last
  axis k running fastest, so the point number t has k = t % 4. At k = 0 the body zeroes its scratch accumulator
  before adding; at every k it adds the block product x_blk(i,k) @ W_blk(k,j) to the scratch; at k = 3 it copies the
  scratch to the output block (i, j), which the pipeline then writes back. So: case A (k = 0: reset and add, output
  untouched), case B (k = 1, 2: add, output untouched), case C (k = 3: add, output stored). Stated at ANY buffer
  contents `V` the region is entered with and any float instance.
-/
import proofs.«139975_j1829656068759_1_alg».proof.Proof.Gen.Kernel.Launch
import proofs.«139975_j1829656068759_1_alg».proof.Proof.Gen.Kernel.Skeleton
import proofs.«139975_j1829656068759_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 (the x block (i, k)): its current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the W block (k, j)). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "k = 0" as the body computes it from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3" (the last k) as the body computes it. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last k the body stores nothing into the output block and the pipeline does not write it back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

/-- One staging buffer of the output window, through which its contents are stated (the choice does not matter). -/
abbrev VO1 : View sig .tc .vmem S1024x1024 .f32 := (Memref.whole cc1_stg2_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The scratch accumulator: a whole scoped buffer of the kernel's own, carried from point to point. -/
abbrev scM1 : Memref sig .tc .vmem S1024x1024 .f32 := Memref.whole cc1_scratch0
abbrev VS1 : View sig .tc .vmem S1024x1024 .f32 := scM1.view

/-! ## The scoped buffers the body never touches, beside the scratch -/

/-- The core's scoped buffers that are no staging buffer of this pallas_call, the scratch's place taken by `S`:
    the first pallas_call's eight staging buffers at some contents, then `S`. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- `S` taken out of `scopedWith` and another put back. -/
theorem scopedWith_split (c : Dev nD) (S : sProp 𝕄) :
    scopedWith (F := F) c S ⊢ iprop(S ∗ (∀ S' : sProp 𝕄, S' -∗ scopedWith (F := F) c S')) := by
  unfold scopedWith
  iintro ⟨H1, H2, H3, H4, H5, H6, H7, H8, HS⟩
  isplitl [HS]; · iexact HS
  iintro %S' HS'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS'

/-- The class-A invariant of this pipeline, with the scratch named as a memref owned at some contents. -/
theorem PhiA1_eq (c : Dev nD) :
    (Pipeline.ΦA spec1 c : sProp 𝕄)
      = iprop(scopedWith (F := F) c (iprop(∃ d, owns (c : Thread nD τ) scM1 fullShare d)) ∗ (∃ r, prngReg c r)) := by
  unfold Pipeline.ΦA scopedWith; rw [scopedRest1_eq]; simp only [scM1, owns_whole]; try rfl

end Cert.Kernel.Fr

end
-- ==== Proof.K.R1RunA.lean ====
/-
  The big matmul's body at a point with k = 0: it zeroes the scratch, then adds x_blk @ W_blk to it; the output
  block is left untouched. Run on whole memrefs — the inputs at their contents, the output at contents handed back
  untouched, the scratch at anything — the body reaches its continuation with the scratch holding the pieces its
  two stores wrote; those pieces are found by running the body, and are the witness of this definition.
-/
import proofs.«139975_j1829656068759_1_alg».proof.Proof.K.R1Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) :
    Σ' (L2 : List (View.Piece (Elt F) S1024x1024 .f32)), { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Fr

end
-- ==== Proof.K.R1RunB.lean ====
/-
  The big matmul's body at a point with k = 1 or 2: it adds x_blk @ W_blk to the scratch, which holds what the
  point before left (`xs`); the output block is left untouched. The pieces the scratch ends with are found by
  running the body.
-/
import proofs.«139975_j1829656068759_1_alg».proof.Proof.K.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs : Vec F S1024x1024 .f32) :
    Σ' (L2 : List (View.Piece (Elt F) S1024x1024 .f32)), { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Fr

end
-- ==== Proof.K.R1RunC.lean ====
/-
  The big matmul's body at a point with k = 3: it adds x_blk @ W_blk to the scratch (holding what the point
  before left, `xs`) and copies the scratch to the output block. The pieces the output and the scratch end with
  are found by running the body.
-/
import proofs.«139975_j1829656068759_1_alg».proof.Proof.K.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs : Vec F S1024x1024 .f32) :
    Σ' (L2 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Fr

end
-- ==== Proof.K.Region1.lean ====
/-
  The big matmul as one region of @main: what each control case leaves in the output block and in the scratch
  accumulator (the pieces its run found, read back), the accumulation point by point — the scratch after point t
  is case A's result at k = 0 and otherwise the case's result over what point t − 1 left —, the region invariant
  that carries the scratch's contents from one point to the next, the pipeline's proof data and its body obligation.
  At any buffer contents `V` the region is entered with and any float instance.
-/
import proofs.«139975_j1829656068759_1_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output block: a placeholder nothing consults (the window is idle there). -/
def out1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) : Vec F S1024x1024 .f32 :=
  VO1.read (Elt F) (VO1.writes (Elt F) VO1.junk (kernelRun1_A c i arg3 harg3 arg4 harg4 arg5 harg5 arg6 harg6 hc0 hc1 x0 x1).1)

/-- Case A's two stores into the scratch cover it. -/
theorem scover1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) (y : S1024x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1024.size (by sl_kernel_rfl) y

/-- What case A leaves in the scratch. -/
def sout1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) : Vec F S1024x1024 .f32 :=
  VS1.read (Elt F) (VS1.writes (Elt F) VS1.junk (kernelRun1_A c i arg3 harg3 arg4 harg4 arg5 harg5 arg6 harg6 hc0 hc1 x0 x1).2.1)

/-- Case B stores nothing into the output block either. -/
def out1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs : Vec F S1024x1024 .f32) : Vec F S1024x1024 .f32 :=
  VO1.read (Elt F) (VO1.writes (Elt F) VO1.junk (kernelRun1_B c i arg3 harg3 arg4 harg4 arg5 harg5 arg6 harg6 hc0 hc1 x0 x1 xs).1)

theorem scover1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs : Vec F S1024x1024 .f32) (y : S1024x1024.Idx) :
    ∃ pc ∈ (kernelRun1_B c i arg3 harg3 arg4 harg4 arg5 harg5 arg6 harg6 hc0 hc1 x0 x1 xs).2.1, y ∈ pc.1.set :=
  View.cover_of_tiledL (kernelRun1_B c i arg3 harg3 arg4 harg4 arg5 harg5 arg6 harg6 hc0 hc1 x0 x1 xs).2.1 S1024x1024.size (by sl_kernel_rfl) y

/-- What case B leaves in the scratch, over what the point before left (`xs`). -/
def sout1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs : Vec F S1024x1024 .f32) : Vec F S1024x1024 .f32 :=
  VS1.read (Elt F) (VS1.writes (Elt F) VS1.junk (kernelRun1_B c i arg3 harg3 arg4 harg4 arg5 harg5 arg6 harg6 hc0 hc1 x0 x1 xs).2.1)

/-- Case C's one store into the output block covers it. -/
theorem cover1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs : Vec F S1024x1024 .f32) (y : S1024x1024.Idx) :
    ∃ pc ∈ (kernelRun1_C c i arg3 harg3 arg4 harg4 arg5 harg5 arg6 harg6 hc0 hc1 x0 x1 xs).1, y ∈ pc.1.set :=
  View.cover_of_tiledL (kernelRun1_C c i arg3 harg3 arg4 harg4 arg5 harg5 arg6 harg6 hc0 hc1 x0 x1 xs).1 S1024x1024.size (by sl_kernel_rfl) y

/-- What case C leaves in the output block. -/
def out1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs : Vec F S1024x1024 .f32) : Vec F S1024x1024 .f32 :=
  VO1.read (Elt F) (VO1.writes (Elt F) VO1.junk (kernelRun1_C c i arg3 harg3 arg4 harg4 arg5 harg5 arg6 harg6 hc0 hc1 x0 x1 xs).1)

theorem scover1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs : Vec F S1024x1024 .f32) (y : S1024x1024.Idx) :
    ∃ pc ∈ (kernelRun1_C c i arg3 harg3 arg4 harg4 arg5 harg5 arg6 harg6 hc0 hc1 x0 x1 xs).2.1, y ∈ pc.1.set :=
  View.cover_of_tiledL (kernelRun1_C c i arg3 harg3 arg4 harg4 arg5 harg5 arg6 harg6 hc0 hc1 x0 x1 xs).2.1 S1024x1024.size (by sl_kernel_rfl) y

/-- What case C leaves in the scratch. -/
def sout1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs : Vec F S1024x1024 .f32) : Vec F S1024x1024 .f32 :=
  VS1.read (Elt F) (VS1.writes (Elt F) VS1.junk (kernelRun1_C c i arg3 harg3 arg4 harg4 arg5 harg5 arg6 harg6 hc0 hc1 x0 x1 xs).2.1)

/-! ## What the output block and the scratch hold after each point -/

/-- THE ACCUMULATION: the output block's staging buffer and the scratch after the body at point `n` (a pair), by
    recursion on the point: case A at k = 0, otherwise case B or C over the scratch the point before left. -/
def outsAt1 (c : Dev nD) : (n : ℕ) → n < cfg1.N → Vec F S1024x1024 .f32 × Vec F S1024x1024 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the scratch carried from point to point -/

/-- Before the first point the scratch holds anything; before point n + 1 it holds what point n left. Beside it
    ride the scoped buffers the body never touches and the generator register. -/
def PhiS1 (c : Dev nD) : (n : ℕ) → n ≤ cfg1.N → sProp 𝕄
  | 0, _ => iprop(scopedWith (F := F) c (iprop(∃ d, owns (c : Thread nD τ) scM1 fullShare d)) ∗ (∃ r, prngReg c r))
  | n + 1, hn => iprop(scopedWith (F := F) c (owns (c : Thread nD τ) scM1 fullShare ((outsAt1 V c n hn).2)) ∗ (∃ r, prngReg c r))

theorem PhiS1_zero (c : Dev nD) (n : ℕ) (h : n ≤ cfg1.N) (hz : n = 0) :
    PhiS1 V c n h = iprop(scopedWith (F := F) c (iprop(∃ d, owns (c : Thread nD τ) scM1 fullShare d)) ∗ (∃ r, prngReg c r)) := by
  subst hz; rfl

theorem PhiS1_succ (c : Dev nD) (n : ℕ) (hn : n < cfg1.N) :
    PhiS1 V c (n + 1) hn = iprop(scopedWith (F := F) c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(scopedWith (F := F) c (owns (c : Thread nD τ) scM1 fullShare ((outsAt1 V c (n - 1) (by omega)).2)) ∗ (∃ r, prngReg c r)) := by
  cases n with
  | zero => exact absurd rfl hz
  | succ n => rfl

/-- The scratch's assertion taken out of `scopedWith`, with the way to put another back. -/
theorem scopedWith_swap (c : Dev nD) (S S' : sProp 𝕄) :
    scopedWith (F := F) c S ⊢ iprop(S ∗ (S' -∗ scopedWith (F := F) c S')) := by
  unfold scopedWith
  iintro ⟨H1, H2, H3, H4, H5, H6, H7, H8, HS⟩
  isplitl [HS]; · iexact HS
  iintro HS'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS'

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; t % 4 says which case the point is in; the
    invariant hands the body the scratch at what the point before left (at anything at the first point) and takes it
    back at this point's contents; away from the last k the output block's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨⟨HSW, Hg⟩, Ho, ⟨%d0, H0⟩, ⟨%d1, H1⟩, ⟨%d2, H2⟩⟩
      ihave HSW' := (scopedWith_swap c _ (owns (c : Thread nD τ) scM1 fullShare (VS1.read (Elt F) (VS1.writes (Elt F) VS1.junk (kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2.1)))) $$ HSW
      icases HSW' with ⟨HS, Hback⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hback]
      · isplitl [HS Hback]
        · iapply Hback
          unfold owns; iexists _; isplitr
          swap; · iexact HS
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨HSW, Hg⟩, Ho, ⟨%d0, H0⟩, ⟨%d1, H1⟩, ⟨%d2, H2⟩⟩
      ihave HSW' := (scopedWith_swap c _ (owns (c : Thread nD τ) scM1 fullShare (VS1.read (Elt F) (VS1.writes (Elt F) VS1.junk (kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2.1)))) $$ HSW
      icases HSW' with ⟨HS, Hback⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg Hback]
      · isplitl [HS Hback]
        · iapply Hback
          unfold owns; iexists _; isplitr
          swap; · iexact HS
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨HSW, Hg⟩, Ho, ⟨%d0, H0⟩, ⟨%d1, H1⟩, ⟨%d2, H2⟩⟩
      ihave HSW' := (scopedWith_swap c _ (owns (c : Thread nD τ) scM1 fullShare (VS1.read (Elt F) (VS1.writes (Elt F) VS1.junk (kernelRun1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2).2.1)))) $$ HSW
      icases HSW' with ⟨HS, Hback⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg Hback]
      · isplitl [HS Hback]
        · iapply Hback
          unfold owns; iexists _; isplitr
          swap; · iexact HS
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨HSW, Hg⟩, Ho, ⟨%d0, H0⟩, ⟨%d1, H1⟩, ⟨%d2, H2⟩⟩
      ihave HSW' := (scopedWith_swap c _ (owns (c : Thread nD τ) scM1 fullShare (VS1.read (Elt F) (VS1.writes (Elt F) VS1.junk (kernelRun1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2).2.1)))) $$ HSW
      icases HSW' with ⟨HS, Hback⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hback]
      · isplitl [HS Hback]
        · iapply Hback
          unfold owns; iexists _; isplitr
          swap; · iexact HS
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed at entry (the class-A invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl, PhiA1_eq]
  try exact Idealize.SL.BI.Entails.refl _

/-- After the last point the invariant gives the class-A invariant back: the scratch's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨HSW, Hg⟩
  isplitl [HSW]
  · ihave HSW' := (scopedWith_swap c _ (iprop(∃ d, owns (c : Thread nD τ) scM1 fullShare d))) $$ HSW
    icases HSW' with ⟨HS, Hback⟩
    iapply Hback
    iexists _; iexact HS
  iexact Hg

end Cert.Kernel.Fr

end
-- ==== Proof.K.Run.lean ====
/-
  THE RUN of @main: three host operations (the scaled u), then the weight-build region, then the matmul region.
  The buffer contents at each boundary are a fold from the launch memory: after the host stretch; after region 0 (its
  arrays at what its write-backs leave, everything else as entered); after region 1 likewise. Every pipeline's proof data
  is taken at its region's entry contents; each region is a segment between the thread states "every unscoped buffer
  at the boundary's contents, the generator register at some state, nothing owed". The result, at any float instance:
  every weakly fair execution terminates and every final memory holds EVERY unscoped buffer at the last boundary's
  contents — from which the frame (each argument as launched) and the result array's contents are read.
-/
import proofs.«139975_j1829656068759_1_alg».proof.Proof.K.Region0
import proofs.«139975_j1829656068759_1_alg».proof.Proof.K.Region1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Bf0 : Dev nD → Valuation τ sig (Elt F) := fun c b => m (c, b)
/-- After the host stretch (region 0's entry). -/
abbrev Bf1 : Dev nD → Valuation τ sig (Elt F) := fun c => StableHlo.after hostOps0 (Bf0 m c)
/-- The same read at the TensorCore's references: what region 0's proof data take. -/
abbrev En1 : (c : Dev nD) → (b : Ref sig .tc) → Buf (Elt F) ((c : Thread nD τ).loc b) := fun c b => Bf1 m c b
/-- At region 0's exit: its arrays at what the pipeline leaves, every other buffer as entered. -/
def Bf2 (c : Dev nD) : Valuation τ sig (Elt F) :=
  Pipeline.withArrays spec0 c (Bf1 m c) fun w => (dat0 (En1 m) c).arrAt w cfg0.N
theorem Bf2_arr (c : Dev nD) (w : Fin cfg0.W) :
    Bf2 m c (Proc.devRef .tc (Pipeline.arrRef spec0 w)) = (dat0 (En1 m) c).arrAt w cfg0.N := by
  unfold Bf2; exact Pipeline.withArrays_arr spec0 launch0.win.arr_inj c _ _ w
theorem Bf2_of_ne (c : Dev nD) (b : Ref sig .tc) (hb : ∀ w, Pipeline.arrRef spec0 w ≠ b) :
    Bf2 m c (Proc.devRef .tc b) = Bf1 m c (Proc.devRef .tc b) := by
  unfold Bf2; exact Pipeline.withArrays_of_ne spec0 c _ _ b hb
/-- Region 1's entry contents. -/
abbrev En2 : (c : Dev nD) → (b : Ref sig .tc) → Buf (Elt F) ((c : Thread nD τ).loc b) := fun c b => Bf2 m c b
theorem hF0 (c : Dev nD) (w : Fin cfg0.W) : (dat0 (En1 m) c).arrAt w cfg0.N = En2 m c (Pipeline.arrRef spec0 w) :=
  (Bf2_arr m c w).symm
theorem hrest0 (c : Dev nD) : ∀ b, b ∉ Finset.univ.image (Pipeline.arrRef spec0) → En2 m c b = En1 m c b :=
  fun b hb => Bf2_of_ne m c b fun w e => hb (Finset.mem_image.mpr ⟨w, Finset.mem_univ _, e⟩)

/-- At region 1's exit (the program's end). -/
def Bf3 (c : Dev nD) : Valuation τ sig (Elt F) :=
  Pipeline.withArrays spec1 c (Bf2 m c) fun w => (dat1 (En2 m) c).arrAt w cfg1.N
theorem Bf3_arr (c : Dev nD) (w : Fin cfg1.W) :
    Bf3 m c (Proc.devRef .tc (Pipeline.arrRef spec1 w)) = (dat1 (En2 m) c).arrAt w cfg1.N := by
  unfold Bf3; exact Pipeline.withArrays_arr spec1 launch1.win.arr_inj c _ _ w
theorem Bf3_of_ne (c : Dev nD) (b : Ref sig .tc) (hb : ∀ w, Pipeline.arrRef spec1 w ≠ b) :
    Bf3 m c (Proc.devRef .tc b) = Bf2 m c (Proc.devRef .tc b) := by
  unfold Bf3; exact Pipeline.withArrays_of_ne spec1 c _ _ b hb
abbrev Ex3 : (c : Dev nD) → (b : Ref sig .tc) → Buf (Elt F) ((c : Thread nD τ).loc b) := fun c b => Bf3 m c b
theorem hF1 (c : Dev nD) (w : Fin cfg1.W) : (dat1 (En2 m) c).arrAt w cfg1.N = Ex3 m c (Pipeline.arrRef spec1 w) :=
  (Bf3_arr m c w).symm
theorem hrest1 (c : Dev nD) : ∀ b, b ∉ Finset.univ.image (Pipeline.arrRef spec1) → Ex3 m c b = En2 m c b :=
  fun b hb => Bf3_of_ne m c b fun w e => hb (Finset.mem_image.mpr ⟨w, Finset.mem_univ _, e⟩)

/-! ### The arguments end as launched: no host operation writes one, and a region only reads it (through an input
    window) or bypasses it -/

theorem Bf1_of_arg (c : Dev nD) (b : Ref sig .tc) (hb : b ≠ main_v0 ∧ b ≠ main_v1 ∧ b ≠ main_v2) :
    Bf1 m c (Proc.devRef .tc b) = m ((c : Thread nD τ).loc b) :=
  (StableHlo.after_of_forall_not_mem (b := Proc.devRef .tc b) _ _ (List.forall_iff_forall_mem.mp (by
          simp only [hostOps0, List.Forall, StableHlo.nullary_writes, StableHlo.unary_writes, StableHlo.binary_writes, Finset.mem_singleton]
          exact ⟨StableHlo.devRef_ne_of_ne hb.1, StableHlo.devRef_ne_of_ne hb.2.1, StableHlo.devRef_ne_of_ne hb.2.2⟩))).trans rfl

/-- x: region 1 reads it through window 0; region 0 and the host stretch do not touch it. -/
theorem Bf3_main_arg0 (c : Dev nD) : Bf3 m c (Proc.devRef .tc main_arg0) = m ((c : Thread nD τ).loc main_arg0) :=
  calc Bf3 m c (Proc.devRef .tc main_arg0)
    _ = Bf2 m c (Proc.devRef .tc main_arg0) := (Bf3_arr m c 0).trans (((dat1 (En2 m) c).arrAt_in 0 rfl _).trans (A_eq1 (En2 m) c 0))
    _ = Bf1 m c (Proc.devRef .tc main_arg0) := Bf2_of_ne m c main_arg0 (by decide)
    _ = m ((c : Thread nD τ).loc main_arg0) := Bf1_of_arg m c main_arg0 (by decide)
/-- orig_weight: region 0 reads it through window 0. -/
theorem Bf3_main_arg1 (c : Dev nD) : Bf3 m c (Proc.devRef .tc main_arg1) = m ((c : Thread nD τ).loc main_arg1) :=
  calc Bf3 m c (Proc.devRef .tc main_arg1)
    _ = Bf2 m c (Proc.devRef .tc main_arg1) := Bf3_of_ne m c main_arg1 (by decide)
    _ = Bf1 m c (Proc.devRef .tc main_arg1) := (Bf2_arr m c 0).trans (((dat0 (En1 m) c).arrAt_in 0 rfl _).trans (A_eq0 (En1 m) c 0))
    _ = m ((c : Thread nD τ).loc main_arg1) := Bf1_of_arg m c main_arg1 (by decide)
/-- u: only the host stretch reads it. -/
theorem Bf3_main_arg2 (c : Dev nD) : Bf3 m c (Proc.devRef .tc main_arg2) = m ((c : Thread nD τ).loc main_arg2) :=
  calc Bf3 m c (Proc.devRef .tc main_arg2)
    _ = Bf2 m c (Proc.devRef .tc main_arg2) := Bf3_of_ne m c main_arg2 (by decide)
    _ = Bf1 m c (Proc.devRef .tc main_arg2) := Bf2_of_ne m c main_arg2 (by decide)
    _ = m ((c : Thread nD τ).loc main_arg2) := Bf1_of_arg m c main_arg2 (by decide)
/-- s: only the host stretch reads it. -/
theorem Bf3_main_arg3 (c : Dev nD) : Bf3 m c (Proc.devRef .tc main_arg3) = m ((c : Thread nD τ).loc main_arg3) :=
  calc Bf3 m c (Proc.devRef .tc main_arg3)
    _ = Bf2 m c (Proc.devRef .tc main_arg3) := Bf3_of_ne m c main_arg3 (by decide)
    _ = Bf1 m c (Proc.devRef .tc main_arg3) := Bf2_of_ne m c main_arg3 (by decide)
    _ = m ((c : Thread nD τ).loc main_arg3) := Bf1_of_arg m c main_arg3 (by decide)
/-- vt: region 0 reads it through window 2. -/
theorem Bf3_main_arg4 (c : Dev nD) : Bf3 m c (Proc.devRef .tc main_arg4) = m ((c : Thread nD τ).loc main_arg4) :=
  calc Bf3 m c (Proc.devRef .tc main_arg4)
    _ = Bf2 m c (Proc.devRef .tc main_arg4) := Bf3_of_ne m c main_arg4 (by decide)
    _ = Bf1 m c (Proc.devRef .tc main_arg4) := (Bf2_arr m c 2).trans (((dat0 (En1 m) c).arrAt_in 2 rfl _).trans (A_eq0 (En1 m) c 2))
    _ = m ((c : Thread nD τ).loc main_arg4) := Bf1_of_arg m c main_arg4 (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (En1 m) c
  | ⟨1, _⟩ => fun c => dat1 (En2 m) c
abbrev 𝒱₀ : Variants := Variants.none
abbrev Lz : GSem nD τ sig → Finset Unit := fun _ => ∅
abbrev lvz : GSem nD τ sig → Unit → ℕ := fun _ _ => 0
/-- What rides beside the buffers through every segment: the generator register at some state, nothing owed. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (Bf3 m c) ∗ ∃ r, prngReg c r)

/-! ## The regions as segments -/

set_option backward.isDefEq.respectTransparency.types false in
/-- The weight-build region: entered from every unscoped buffer at `Bf1`, left at `Bf2`. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (En1 m) c).loose
  hwaits := Pipeline.hwaits_of_owed_zero _ _ _ _ Lz lvz 0 fun _ _ => rfl
  pre c := iprop(StableHlo.held (c : Thread nD τ) (Pipeline.ucRefs τ sig) (Bf1 m c) ∗ Rd c)
  post c := iprop(StableHlo.held (c : Thread nD τ) (Pipeline.ucRefs τ sig) (Bf2 m c) ∗ Rd c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En1 m c) (En2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered from every unscoped buffer at `Bf2`, left at `Bf3`. Its invariant takes the class-A
    invariant in (the scratch at anything) and gives it back (the scratch's contents forgotten). -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (En2 m) c).loose
  hwaits := Pipeline.hwaits_of_owed_zero _ _ _ _ Lz lvz 1 fun _ _ => rfl
  pre c := iprop(StableHlo.held (c : Thread nD τ) (Pipeline.ucRefs τ sig) (Bf2 m c) ∗ Rd c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (En2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (hin1 (En2 m) c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (En2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En2 m c) (Ex3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ Lz lvz) :=
  [ .host (hseg hostOps0 hostOps0_sub hostOps0_fresh' (Bf0 m)),
    .region (reg0 m),
    .region (reg1 m) ]
theorem main_run (c : Dev nD) : main (F := F) c = Pipeline.Seg.run (segs m) := (main_chain c).trans (by chain_rfl)

set_option backward.isDefEq.respectTransparency.types false in
/-- THE RUN: at the compiled mesh, at any float instance, from any memory with zero counters, every weakly fair
    execution of @main terminates, nothing faulting, and every final memory holds every unscoped buffer at `Bf3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Bf3 m c b) :=
  Pipeline.θ_run_regions_kit (pcfgs (F := F)) adm (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bf0 m c) ∗ Rd c)) (Tₙ := Tn m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Bf0 m c)
        from Pipeline.unscopedBufs_held c (Bf0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bf3 m c b)
    (hfin := fun c s' => by
      iintro ⟨⟨Hh, -⟩, HSI⟩
      unfold StableHlo.held
      imodintro
      iapply (pointsTo_read_all (Pipeline.ucRefs τ sig) (fun b => (((c : Thread nD τ)).1, b)) (Bf3 m c) s')
      isplitl [Hh] <;> iassumption)
    (hQ := fun s h => h)

/-- THE FRAME, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Bf3_main_arg0 m c),
     (h c _ (mem_uc main_arg1 (by decide))).trans (Bf3_main_arg1 m c),
     (h c _ (mem_uc main_arg2 (by decide))).trans (Bf3_main_arg2 m c),
     (h c _ (mem_uc main_arg3 (by decide))).trans (Bf3_main_arg3 m c),
     (h c _ (mem_uc main_arg4 (by decide))).trans (Bf3_main_arg4 m c)⟩) (run_main m ρ)

/-- The run with the result array named: it ends at what the matmul region's write-backs leave, the arguments as
    launched. -/
theorem run_result : θ_run defs (onTc (τ := τ) (main (F := F))) ⟨m, fun _ => 0, ρ⟩ (fun r => ∀ c : Dev nD,
      r.2.mem ((c.tc : Thread nD τ).loc main_v4) = (dat1 (En2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v4 (by decide))).trans (Bf3_arr m c 2),
     (h c _ (mem_uc main_arg0 (by decide))).trans (Bf3_main_arg0 m c),
     (h c _ (mem_uc main_arg1 (by decide))).trans (Bf3_main_arg1 m c),
     (h c _ (mem_uc main_arg2 (by decide))).trans (Bf3_main_arg2 m c),
     (h c _ (mem_uc main_arg3 (by decide))).trans (Bf3_main_arg3 m c),
     (h c _ (mem_uc main_arg4 (by decide))).trans (Bf3_main_arg4 m c)⟩) (run_main m ρ)

end Cert.Kernel.Fr

end
-- ==== Proof.KI.Region0.lean ====
/-
  The first pallas_call (the weight build), as one region of @main: W = orig_weight + (u·s) @ vt, one
  512×512 block of W per grid point (an 8×8 grid). Each point loads the three input blocks whole, forms
  ow_blk + matmul(us_blk, vt_blk, 0), and stores the whole output block; nothing is carried between
  points. This module states, at ANY buffer contents `V` the region is entered with and at any float
  instance, what each staging buffer holds after the body (the inputs their blocks, the output the one
  stored piece), the body's triple, and the pipeline's proof data with its body obligation.
-/
import proofs.«139975_j1829656068759_1_alg».proof.Proof.Gen.KernelIdeal.Launch
import proofs.«139975_j1829656068759_1_alg».proof.Proof.Gen.KernelIdeal.Skeleton
import proofs.«139975_j1829656068759_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, which the run instantiates
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (when it is
    not fetched the block index has not moved): window 0, the orig_weight block (i, j). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1, the scaled-u block (i, 0): refetched only when i moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2, the vt block (0, j). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S512x512 := Rect.unit (s := S512x512) ![0, 0] S512x512.size inb_S512x512_S512x512_0_0
abbrev rU0 : Rect S512x16 := Rect.unit (s := S512x16) ![0, 0] S512x16.size inb_S512x16_S512x16_0_0
abbrev rT0 : Rect S16x512 := Rect.unit (s := S16x512) ![0, 0] S16x512.size inb_S16x512_S16x512_0_0

/-! ## What the body leaves in the output window's buffer -/

/-- The W block after the body: its one store, of the body's arithmetic on the three loaded blocks
    (`x0` the orig_weight block, `x1` the scaled-u block, `x2` the vt block). -/
def out0_3 (x0 : Vec F S512x512 .f32) (x1 : Vec F S512x16 .f32) (x2 : Vec F S16x512 .f32) : Vec F S512x512 .bf16 :=
  View.canon [⟨rA0, k0_pay1 (View.ld x1 rU0) (View.ld x2 rT0) (View.ld x0 rA0)⟩]

/-- The one store covers the buffer. -/
theorem cover0_3 (p0 : Vec F S512x512 .bf16) (y : S512x512.Idx) :
    ∃ pc ∈ ([⟨rA0, p0⟩] : List (View.Piece (Elt F) S512x512 .bf16)), y ∈ pc.1.set :=
  View.cover_of_tiled [⟨rA0, p0⟩] S512x512.size (by rfl) y

/-! ## The body's triple -/

set_option maxHeartbeats 1000000 in
/-- The body on whole staging memrefs — the inputs' at contents `x0`, `x1`, `x2`, the output's at anything — runs to
    the continuation holding the inputs' as they were and the output's at `out0_3` of them. -/
theorem sound_kernel0 (c : Dev nD) (E : Set ℕ) (i : grid0.Coords) (arg2 : Memref sig .tc .vmem S512x512 .f32) (harg2 : arg2.IsWhole) (arg3 : Memref sig .tc .vmem S512x16 .f32) (harg3 : arg3.IsWhole)
    (arg4 : Memref sig .tc .vmem S16x512 .f32) (harg4 : arg4.IsWhole) (arg5 : Memref sig .tc .vmem S512x512 .bf16) (harg5 : arg5.IsWhole)
    (x0 : Vec F S512x512 .f32) (x1 : Vec F S512x16 .f32) (x2 : Vec F S16x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__build_w_kernel i arg2 harg2 arg3 harg3 arg4 harg4 arg5 harg5) K := by
  simp only [cc0__build_w_kernel_eq_skeleton]; unfold cc0__build_w_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t`
    each input's buffer at its block and the output's at `out0_3` of the input blocks; the invariant holds only
    what the body never touches (the other scoped buffers, the generator register); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1Defs.lean ====
/-
  The second pallas_call (the big matmul), what its three control cases share. The grid is 8 × 4 × 4, the last
  axis k running fastest, so the point number t has k = t % 4. At k = 0 the body zeroes its scratch accumulator
  before adding; at every k it adds the block product x_blk(i,k) @ W_blk(k,j) to the scratch; at k = 3 it copies the
  scratch to the output block (i, j), which the pipeline then writes back. So: case A (k = 0: reset and add, output
  untouched), case B (k = 1, 2: add, output untouched), case C (k = 3: add, output stored). Stated at ANY buffer
  contents `V` the region is entered with and any float instance.
-/
import proofs.«139975_j1829656068759_1_alg».proof.Proof.Gen.KernelIdeal.Launch
import proofs.«139975_j1829656068759_1_alg».proof.Proof.Gen.KernelIdeal.Skeleton
import proofs.«139975_j1829656068759_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 (the x block (i, k)): its current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the W block (k, j)). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "k = 0" as the body computes it from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3" (the last k) as the body computes it. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last k the body stores nothing into the output block and the pipeline does not write it back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

/-- One staging buffer of the output window, through which its contents are stated (the choice does not matter). -/
abbrev VO1 : View sig .tc .vmem S1024x1024 .f32 := (Memref.whole cc1_stg2_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The scratch accumulator: a whole scoped buffer of the kernel's own, carried from point to point. -/
abbrev scM1 : Memref sig .tc .vmem S1024x1024 .f32 := Memref.whole cc1_scratch0
abbrev VS1 : View sig .tc .vmem S1024x1024 .f32 := scM1.view

/-! ## The scoped buffers the body never touches, beside the scratch -/

/-- The core's scoped buffers that are no staging buffer of this pallas_call, the scratch's place taken by `S`:
    the first pallas_call's eight staging buffers at some contents, then `S`. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- `S` taken out of `scopedWith` and another put back. -/
theorem scopedWith_split (c : Dev nD) (S : sProp 𝕄) :
    scopedWith (F := F) c S ⊢ iprop(S ∗ (∀ S' : sProp 𝕄, S' -∗ scopedWith (F := F) c S')) := by
  unfold scopedWith
  iintro ⟨H1, H2, H3, H4, H5, H6, H7, H8, HS⟩
  isplitl [HS]; · iexact HS
  iintro %S' HS'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS'

/-- The class-A invariant of this pipeline, with the scratch named as a memref owned at some contents. -/
theorem PhiA1_eq (c : Dev nD) :
    (Pipeline.ΦA spec1 c : sProp 𝕄)
      = iprop(scopedWith (F := F) c (iprop(∃ d, owns (c : Thread nD τ) scM1 fullShare d)) ∗ (∃ r, prngReg c r)) := by
  unfold Pipeline.ΦA scopedWith; rw [scopedRest1_eq]; simp only [scM1, owns_whole]; try rfl

end Cert.KernelIdeal.Fr

end
-- ==== Proof.KI.R1RunA.lean ====
/-
  The big matmul's body at a point with k = 0: it zeroes the scratch, then adds x_blk @ W_blk to it; the output
  block is left untouched. Run on whole memrefs — the inputs at their contents, the output at contents handed back
  untouched, the scratch at anything — the body reaches its continuation with the scratch holding the pieces its
  two stores wrote; those pieces are found by running the body, and are the witness of this definition.
-/
import proofs.«139975_j1829656068759_1_alg».proof.Proof.KI.R1Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) :
    Σ' (L2 : List (View.Piece (Elt F) S1024x1024 .f32)), { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Fr

end
-- ==== Proof.KI.R1RunB.lean ====
/-
  The big matmul's body at a point with k = 1 or 2: it adds x_blk @ W_blk to the scratch, which holds what the
  point before left (`xs`); the output block is left untouched. The pieces the scratch ends with are found by
  running the body.
-/
import proofs.«139975_j1829656068759_1_alg».proof.Proof.KI.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs : Vec F S1024x1024 .f32) :
    Σ' (L2 : List (View.Piece (Elt F) S1024x1024 .f32)), { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Fr

end
-- ==== Proof.KI.R1RunC.lean ====
/-
  The big matmul's body at a point with k = 3: it adds x_blk @ W_blk to the scratch (holding what the point
  before left, `xs`) and copies the scratch to the output block. The pieces the output and the scratch end with
  are found by running the body.
-/
import proofs.«139975_j1829656068759_1_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs : Vec F S1024x1024 .f32) :
    Σ' (L2 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Fr

end
-- ==== Proof.KI.Region1.lean ====
/-
  The big matmul as one region of @main: what each control case leaves in the output block and in the scratch
  accumulator (the pieces its run found, read back), the accumulation point by point — the scratch after point t
  is case A's result at k = 0 and otherwise the case's result over what point t − 1 left —, the region invariant
  that carries the scratch's contents from one point to the next, the pipeline's proof data and its body obligation.
  At any buffer contents `V` the region is entered with and any float instance.
-/
import proofs.«139975_j1829656068759_1_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output block: a placeholder nothing consults (the window is idle there). -/
def out1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) : Vec F S1024x1024 .f32 :=
  VO1.read (Elt F) (VO1.writes (Elt F) VO1.junk (kernelRun1_A c i arg3 harg3 arg4 harg4 arg5 harg5 arg6 harg6 hc0 hc1 x0 x1).1)

/-- Case A's two stores into the scratch cover it. -/
theorem scover1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) (y : S1024x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1024.size (by sl_kernel_rfl) y

/-- What case A leaves in the scratch. -/
def sout1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) : Vec F S1024x1024 .f32 :=
  VS1.read (Elt F) (VS1.writes (Elt F) VS1.junk (kernelRun1_A c i arg3 harg3 arg4 harg4 arg5 harg5 arg6 harg6 hc0 hc1 x0 x1).2.1)

/-- Case B stores nothing into the output block either. -/
def out1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs : Vec F S1024x1024 .f32) : Vec F S1024x1024 .f32 :=
  VO1.read (Elt F) (VO1.writes (Elt F) VO1.junk (kernelRun1_B c i arg3 harg3 arg4 harg4 arg5 harg5 arg6 harg6 hc0 hc1 x0 x1 xs).1)

theorem scover1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs : Vec F S1024x1024 .f32) (y : S1024x1024.Idx) :
    ∃ pc ∈ (kernelRun1_B c i arg3 harg3 arg4 harg4 arg5 harg5 arg6 harg6 hc0 hc1 x0 x1 xs).2.1, y ∈ pc.1.set :=
  View.cover_of_tiledL (kernelRun1_B c i arg3 harg3 arg4 harg4 arg5 harg5 arg6 harg6 hc0 hc1 x0 x1 xs).2.1 S1024x1024.size (by sl_kernel_rfl) y

/-- What case B leaves in the scratch, over what the point before left (`xs`). -/
def sout1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs : Vec F S1024x1024 .f32) : Vec F S1024x1024 .f32 :=
  VS1.read (Elt F) (VS1.writes (Elt F) VS1.junk (kernelRun1_B c i arg3 harg3 arg4 harg4 arg5 harg5 arg6 harg6 hc0 hc1 x0 x1 xs).2.1)

/-- Case C's one store into the output block covers it. -/
theorem cover1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs : Vec F S1024x1024 .f32) (y : S1024x1024.Idx) :
    ∃ pc ∈ (kernelRun1_C c i arg3 harg3 arg4 harg4 arg5 harg5 arg6 harg6 hc0 hc1 x0 x1 xs).1, y ∈ pc.1.set :=
  View.cover_of_tiledL (kernelRun1_C c i arg3 harg3 arg4 harg4 arg5 harg5 arg6 harg6 hc0 hc1 x0 x1 xs).1 S1024x1024.size (by sl_kernel_rfl) y

/-- What case C leaves in the output block. -/
def out1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs : Vec F S1024x1024 .f32) : Vec F S1024x1024 .f32 :=
  VO1.read (Elt F) (VO1.writes (Elt F) VO1.junk (kernelRun1_C c i arg3 harg3 arg4 harg4 arg5 harg5 arg6 harg6 hc0 hc1 x0 x1 xs).1)

theorem scover1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs : Vec F S1024x1024 .f32) (y : S1024x1024.Idx) :
    ∃ pc ∈ (kernelRun1_C c i arg3 harg3 arg4 harg4 arg5 harg5 arg6 harg6 hc0 hc1 x0 x1 xs).2.1, y ∈ pc.1.set :=
  View.cover_of_tiledL (kernelRun1_C c i arg3 harg3 arg4 harg4 arg5 harg5 arg6 harg6 hc0 hc1 x0 x1 xs).2.1 S1024x1024.size (by sl_kernel_rfl) y

/-- What case C leaves in the scratch. -/
def sout1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs : Vec F S1024x1024 .f32) : Vec F S1024x1024 .f32 :=
  VS1.read (Elt F) (VS1.writes (Elt F) VS1.junk (kernelRun1_C c i arg3 harg3 arg4 harg4 arg5 harg5 arg6 harg6 hc0 hc1 x0 x1 xs).2.1)

/-! ## What the output block and the scratch hold after each point -/

/-- THE ACCUMULATION: the output block's staging buffer and the scratch after the body at point `n` (a pair), by
    recursion on the point: case A at k = 0, otherwise case B or C over the scratch the point before left. -/
def outsAt1 (c : Dev nD) : (n : ℕ) → n < cfg1.N → Vec F S1024x1024 .f32 × Vec F S1024x1024 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the scratch carried from point to point -/

/-- Before the first point the scratch holds anything; before point n + 1 it holds what point n left. Beside it
    ride the scoped buffers the body never touches and the generator register. -/
def PhiS1 (c : Dev nD) : (n : ℕ) → n ≤ cfg1.N → sProp 𝕄
  | 0, _ => iprop(scopedWith (F := F) c (iprop(∃ d, owns (c : Thread nD τ) scM1 fullShare d)) ∗ (∃ r, prngReg c r))
  | n + 1, hn => iprop(scopedWith (F := F) c (owns (c : Thread nD τ) scM1 fullShare ((outsAt1 V c n hn).2)) ∗ (∃ r, prngReg c r))

theorem PhiS1_zero (c : Dev nD) (n : ℕ) (h : n ≤ cfg1.N) (hz : n = 0) :
    PhiS1 V c n h = iprop(scopedWith (F := F) c (iprop(∃ d, owns (c : Thread nD τ) scM1 fullShare d)) ∗ (∃ r, prngReg c r)) := by
  subst hz; rfl

theorem PhiS1_succ (c : Dev nD) (n : ℕ) (hn : n < cfg1.N) :
    PhiS1 V c (n + 1) hn = iprop(scopedWith (F := F) c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(scopedWith (F := F) c (owns (c : Thread nD τ) scM1 fullShare ((outsAt1 V c (n - 1) (by omega)).2)) ∗ (∃ r, prngReg c r)) := by
  cases n with
  | zero => exact absurd rfl hz
  | succ n => rfl

/-- The scratch's assertion taken out of `scopedWith`, with the way to put another back. -/
theorem scopedWith_swap (c : Dev nD) (S S' : sProp 𝕄) :
    scopedWith (F := F) c S ⊢ iprop(S ∗ (S' -∗ scopedWith (F := F) c S')) := by
  unfold scopedWith
  iintro ⟨H1, H2, H3, H4, H5, H6, H7, H8, HS⟩
  isplitl [HS]; · iexact HS
  iintro HS'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS'

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; t % 4 says which case the point is in; the
    invariant hands the body the scratch at what the point before left (at anything at the first point) and takes it
    back at this point's contents; away from the last k the output block's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨⟨HSW, Hg⟩, Ho, ⟨%d0, H0⟩, ⟨%d1, H1⟩, ⟨%d2, H2⟩⟩
      ihave HSW' := (scopedWith_swap c _ (owns (c : Thread nD τ) scM1 fullShare (VS1.read (Elt F) (VS1.writes (Elt F) VS1.junk (kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2.1)))) $$ HSW
      icases HSW' with ⟨HS, Hback⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hback]
      · isplitl [HS Hback]
        · iapply Hback
          unfold owns; iexists _; isplitr
          swap; · iexact HS
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨HSW, Hg⟩, Ho, ⟨%d0, H0⟩, ⟨%d1, H1⟩, ⟨%d2, H2⟩⟩
      ihave HSW' := (scopedWith_swap c _ (owns (c : Thread nD τ) scM1 fullShare (VS1.read (Elt F) (VS1.writes (Elt F) VS1.junk (kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2.1)))) $$ HSW
      icases HSW' with ⟨HS, Hback⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg Hback]
      · isplitl [HS Hback]
        · iapply Hback
          unfold owns; iexists _; isplitr
          swap; · iexact HS
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨HSW, Hg⟩, Ho, ⟨%d0, H0⟩, ⟨%d1, H1⟩, ⟨%d2, H2⟩⟩
      ihave HSW' := (scopedWith_swap c _ (owns (c : Thread nD τ) scM1 fullShare (VS1.read (Elt F) (VS1.writes (Elt F) VS1.junk (kernelRun1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2).2.1)))) $$ HSW
      icases HSW' with ⟨HS, Hback⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg Hback]
      · isplitl [HS Hback]
        · iapply Hback
          unfold owns; iexists _; isplitr
          swap; · iexact HS
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨HSW, Hg⟩, Ho, ⟨%d0, H0⟩, ⟨%d1, H1⟩, ⟨%d2, H2⟩⟩
      ihave HSW' := (scopedWith_swap c _ (owns (c : Thread nD τ) scM1 fullShare (VS1.read (Elt F) (VS1.writes (Elt F) VS1.junk (kernelRun1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2).2.1)))) $$ HSW
      icases HSW' with ⟨HS, Hback⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hback]
      · isplitl [HS Hback]
        · iapply Hback
          unfold owns; iexists _; isplitr
          swap; · iexact HS
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed at entry (the class-A invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl, PhiA1_eq]
  try exact Idealize.SL.BI.Entails.refl _

/-- After the last point the invariant gives the class-A invariant back: the scratch's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨HSW, Hg⟩
  isplitl [HSW]
  · ihave HSW' := (scopedWith_swap c _ (iprop(∃ d, owns (c : Thread nD τ) scM1 fullShare d))) $$ HSW
    icases HSW' with ⟨HS, Hback⟩
    iapply Hback
    iexists _; iexact HS
  iexact Hg

end Cert.KernelIdeal.Fr

end
-- ==== Proof.KI.Run.lean ====
/-
  THE RUN of @main: three host operations (the scaled u), then the weight-build region, then the matmul region.
  The buffer contents at each boundary are a fold from the launch memory: after the host stretch; after region 0 (its
  arrays at what its write-backs leave, everything else as entered); after region 1 likewise. Every pipeline's proof data
  is taken at its region's entry contents; each region is a segment between the thread states "every unscoped buffer
  at the boundary's contents, the generator register at some state, nothing owed". The result, at any float instance:
  every weakly fair execution terminates and every final memory holds EVERY unscoped buffer at the last boundary's
  contents — from which the frame (each argument as launched) and the result array's contents are read.
-/
import proofs.«139975_j1829656068759_1_alg».proof.Proof.KI.Region0
import proofs.«139975_j1829656068759_1_alg».proof.Proof.KI.Region1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Bf0 : Dev nD → Valuation τ sig (Elt F) := fun c b => m (c, b)
/-- After the host stretch (region 0's entry). -/
abbrev Bf1 : Dev nD → Valuation τ sig (Elt F) := fun c => StableHlo.after hostOps0 (Bf0 m c)
/-- The same read at the TensorCore's references: what region 0's proof data take. -/
abbrev En1 : (c : Dev nD) → (b : Ref sig .tc) → Buf (Elt F) ((c : Thread nD τ).loc b) := fun c b => Bf1 m c b
/-- At region 0's exit: its arrays at what the pipeline leaves, every other buffer as entered. -/
def Bf2 (c : Dev nD) : Valuation τ sig (Elt F) :=
  Pipeline.withArrays spec0 c (Bf1 m c) fun w => (dat0 (En1 m) c).arrAt w cfg0.N
theorem Bf2_arr (c : Dev nD) (w : Fin cfg0.W) :
    Bf2 m c (Proc.devRef .tc (Pipeline.arrRef spec0 w)) = (dat0 (En1 m) c).arrAt w cfg0.N := by
  unfold Bf2; exact Pipeline.withArrays_arr spec0 launch0.win.arr_inj c _ _ w
theorem Bf2_of_ne (c : Dev nD) (b : Ref sig .tc) (hb : ∀ w, Pipeline.arrRef spec0 w ≠ b) :
    Bf2 m c (Proc.devRef .tc b) = Bf1 m c (Proc.devRef .tc b) := by
  unfold Bf2; exact Pipeline.withArrays_of_ne spec0 c _ _ b hb
/-- Region 1's entry contents. -/
abbrev En2 : (c : Dev nD) → (b : Ref sig .tc) → Buf (Elt F) ((c : Thread nD τ).loc b) := fun c b => Bf2 m c b
theorem hF0 (c : Dev nD) (w : Fin cfg0.W) : (dat0 (En1 m) c).arrAt w cfg0.N = En2 m c (Pipeline.arrRef spec0 w) :=
  (Bf2_arr m c w).symm
theorem hrest0 (c : Dev nD) : ∀ b, b ∉ Finset.univ.image (Pipeline.arrRef spec0) → En2 m c b = En1 m c b :=
  fun b hb => Bf2_of_ne m c b fun w e => hb (Finset.mem_image.mpr ⟨w, Finset.mem_univ _, e⟩)

/-- At region 1's exit (the program's end). -/
def Bf3 (c : Dev nD) : Valuation τ sig (Elt F) :=
  Pipeline.withArrays spec1 c (Bf2 m c) fun w => (dat1 (En2 m) c).arrAt w cfg1.N
theorem Bf3_arr (c : Dev nD) (w : Fin cfg1.W) :
    Bf3 m c (Proc.devRef .tc (Pipeline.arrRef spec1 w)) = (dat1 (En2 m) c).arrAt w cfg1.N := by
  unfold Bf3; exact Pipeline.withArrays_arr spec1 launch1.win.arr_inj c _ _ w
theorem Bf3_of_ne (c : Dev nD) (b : Ref sig .tc) (hb : ∀ w, Pipeline.arrRef spec1 w ≠ b) :
    Bf3 m c (Proc.devRef .tc b) = Bf2 m c (Proc.devRef .tc b) := by
  unfold Bf3; exact Pipeline.withArrays_of_ne spec1 c _ _ b hb
abbrev Ex3 : (c : Dev nD) → (b : Ref sig .tc) → Buf (Elt F) ((c : Thread nD τ).loc b) := fun c b => Bf3 m c b
theorem hF1 (c : Dev nD) (w : Fin cfg1.W) : (dat1 (En2 m) c).arrAt w cfg1.N = Ex3 m c (Pipeline.arrRef spec1 w) :=
  (Bf3_arr m c w).symm
theorem hrest1 (c : Dev nD) : ∀ b, b ∉ Finset.univ.image (Pipeline.arrRef spec1) → Ex3 m c b = En2 m c b :=
  fun b hb => Bf3_of_ne m c b fun w e => hb (Finset.mem_image.mpr ⟨w, Finset.mem_univ _, e⟩)

/-! ### The arguments end as launched: no host operation writes one, and a region only reads it (through an input
    window) or bypasses it -/

theorem Bf1_of_arg (c : Dev nD) (b : Ref sig .tc) (hb : b ≠ main_v0 ∧ b ≠ main_v1 ∧ b ≠ main_v2) :
    Bf1 m c (Proc.devRef .tc b) = m ((c : Thread nD τ).loc b) :=
  (StableHlo.after_of_forall_not_mem (b := Proc.devRef .tc b) _ _ (List.forall_iff_forall_mem.mp (by
          simp only [hostOps0, List.Forall, StableHlo.nullary_writes, StableHlo.unary_writes, StableHlo.binary_writes, Finset.mem_singleton]
          exact ⟨StableHlo.devRef_ne_of_ne hb.1, StableHlo.devRef_ne_of_ne hb.2.1, StableHlo.devRef_ne_of_ne hb.2.2⟩))).trans rfl

/-- x: region 1 reads it through window 0; region 0 and the host stretch do not touch it. -/
theorem Bf3_main_arg0 (c : Dev nD) : Bf3 m c (Proc.devRef .tc main_arg0) = m ((c : Thread nD τ).loc main_arg0) :=
  calc Bf3 m c (Proc.devRef .tc main_arg0)
    _ = Bf2 m c (Proc.devRef .tc main_arg0) := (Bf3_arr m c 0).trans (((dat1 (En2 m) c).arrAt_in 0 rfl _).trans (A_eq1 (En2 m) c 0))
    _ = Bf1 m c (Proc.devRef .tc main_arg0) := Bf2_of_ne m c main_arg0 (by decide)
    _ = m ((c : Thread nD τ).loc main_arg0) := Bf1_of_arg m c main_arg0 (by decide)
/-- orig_weight: region 0 reads it through window 0. -/
theorem Bf3_main_arg1 (c : Dev nD) : Bf3 m c (Proc.devRef .tc main_arg1) = m ((c : Thread nD τ).loc main_arg1) :=
  calc Bf3 m c (Proc.devRef .tc main_arg1)
    _ = Bf2 m c (Proc.devRef .tc main_arg1) := Bf3_of_ne m c main_arg1 (by decide)
    _ = Bf1 m c (Proc.devRef .tc main_arg1) := (Bf2_arr m c 0).trans (((dat0 (En1 m) c).arrAt_in 0 rfl _).trans (A_eq0 (En1 m) c 0))
    _ = m ((c : Thread nD τ).loc main_arg1) := Bf1_of_arg m c main_arg1 (by decide)
/-- u: only the host stretch reads it. -/
theorem Bf3_main_arg2 (c : Dev nD) : Bf3 m c (Proc.devRef .tc main_arg2) = m ((c : Thread nD τ).loc main_arg2) :=
  calc Bf3 m c (Proc.devRef .tc main_arg2)
    _ = Bf2 m c (Proc.devRef .tc main_arg2) := Bf3_of_ne m c main_arg2 (by decide)
    _ = Bf1 m c (Proc.devRef .tc main_arg2) := Bf2_of_ne m c main_arg2 (by decide)
    _ = m ((c : Thread nD τ).loc main_arg2) := Bf1_of_arg m c main_arg2 (by decide)
/-- s: only the host stretch reads it. -/
theorem Bf3_main_arg3 (c : Dev nD) : Bf3 m c (Proc.devRef .tc main_arg3) = m ((c : Thread nD τ).loc main_arg3) :=
  calc Bf3 m c (Proc.devRef .tc main_arg3)
    _ = Bf2 m c (Proc.devRef .tc main_arg3) := Bf3_of_ne m c main_arg3 (by decide)
    _ = Bf1 m c (Proc.devRef .tc main_arg3) := Bf2_of_ne m c main_arg3 (by decide)
    _ = m ((c : Thread nD τ).loc main_arg3) := Bf1_of_arg m c main_arg3 (by decide)
/-- vt: region 0 reads it through window 2. -/
theorem Bf3_main_arg4 (c : Dev nD) : Bf3 m c (Proc.devRef .tc main_arg4) = m ((c : Thread nD τ).loc main_arg4) :=
  calc Bf3 m c (Proc.devRef .tc main_arg4)
    _ = Bf2 m c (Proc.devRef .tc main_arg4) := Bf3_of_ne m c main_arg4 (by decide)
    _ = Bf1 m c (Proc.devRef .tc main_arg4) := (Bf2_arr m c 2).trans (((dat0 (En1 m) c).arrAt_in 2 rfl _).trans (A_eq0 (En1 m) c 2))
    _ = m ((c : Thread nD τ).loc main_arg4) := Bf1_of_arg m c main_arg4 (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (En1 m) c
  | ⟨1, _⟩ => fun c => dat1 (En2 m) c
abbrev 𝒱₀ : Variants := Variants.none
abbrev Lz : GSem nD τ sig → Finset Unit := fun _ => ∅
abbrev lvz : GSem nD τ sig → Unit → ℕ := fun _ _ => 0
/-- What rides beside the buffers through every segment: the generator register at some state, nothing owed. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (Bf3 m c) ∗ ∃ r, prngReg c r)

/-! ## The regions as segments -/

set_option backward.isDefEq.respectTransparency.types false in
/-- The weight-build region: entered from every unscoped buffer at `Bf1`, left at `Bf2`. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (En1 m) c).loose
  hwaits := Pipeline.hwaits_of_owed_zero _ _ _ _ Lz lvz 0 fun _ _ => rfl
  pre c := iprop(StableHlo.held (c : Thread nD τ) (Pipeline.ucRefs τ sig) (Bf1 m c) ∗ Rd c)
  post c := iprop(StableHlo.held (c : Thread nD τ) (Pipeline.ucRefs τ sig) (Bf2 m c) ∗ Rd c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En1 m c) (En2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered from every unscoped buffer at `Bf2`, left at `Bf3`. Its invariant takes the class-A
    invariant in (the scratch at anything) and gives it back (the scratch's contents forgotten). -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (En2 m) c).loose
  hwaits := Pipeline.hwaits_of_owed_zero _ _ _ _ Lz lvz 1 fun _ _ => rfl
  pre c := iprop(StableHlo.held (c : Thread nD τ) (Pipeline.ucRefs τ sig) (Bf2 m c) ∗ Rd c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (En2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (hin1 (En2 m) c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (En2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En2 m c) (Ex3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ Lz lvz) :=
  [ .host (hseg hostOps0 hostOps0_sub hostOps0_fresh' (Bf0 m)),
    .region (reg0 m),
    .region (reg1 m) ]
theorem main_run (c : Dev nD) : main (F := F) c = Pipeline.Seg.run (segs m) := (main_chain c).trans (by chain_rfl)

set_option backward.isDefEq.respectTransparency.types false in
/-- THE RUN: at the compiled mesh, at any float instance, from any memory with zero counters, every weakly fair
    execution of @main terminates, nothing faulting, and every final memory holds every unscoped buffer at `Bf3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Bf3 m c b) :=
  Pipeline.θ_run_regions_kit (pcfgs (F := F)) adm (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bf0 m c) ∗ Rd c)) (Tₙ := Tn m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Bf0 m c)
        from Pipeline.unscopedBufs_held c (Bf0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bf3 m c b)
    (hfin := fun c s' => by
      iintro ⟨⟨Hh, -⟩, HSI⟩
      unfold StableHlo.held
      imodintro
      iapply (pointsTo_read_all (Pipeline.ucRefs τ sig) (fun b => (((c : Thread nD τ)).1, b)) (Bf3 m c) s')
      isplitl [Hh] <;> iassumption)
    (hQ := fun s h => h)

/-- THE FRAME, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Bf3_main_arg0 m c),
     (h c _ (mem_uc main_arg1 (by decide))).trans (Bf3_main_arg1 m c),
     (h c _ (mem_uc main_arg2 (by decide))).trans (Bf3_main_arg2 m c),
     (h c _ (mem_uc main_arg3 (by decide))).trans (Bf3_main_arg3 m c),
     (h c _ (mem_uc main_arg4 (by decide))).trans (Bf3_main_arg4 m c)⟩) (run_main m ρ)

/-- The run with the result array named: it ends at what the matmul region's write-backs leave, the arguments as
    launched. -/
theorem run_result : θ_run defs (onTc (τ := τ) (main (F := F))) ⟨m, fun _ => 0, ρ⟩ (fun r => ∀ c : Dev nD,
      r.2.mem ((c.tc : Thread nD τ).loc main_v4) = (dat1 (En2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v4 (by decide))).trans (Bf3_arr m c 2),
     (h c _ (mem_uc main_arg0 (by decide))).trans (Bf3_main_arg0 m c),
     (h c _ (mem_uc main_arg1 (by decide))).trans (Bf3_main_arg1 m c),
     (h c _ (mem_uc main_arg2 (by decide))).trans (Bf3_main_arg2 m c),
     (h c _ (mem_uc main_arg3 (by decide))).trans (Bf3_main_arg3 m c),
     (h c _ (mem_uc main_arg4 (by decide))).trans (Bf3_main_arg4 m c)⟩) (run_main m ρ)

end Cert.KernelIdeal.Fr

end
-- ==== Proof.Spec.lean ====
/-
  The mathematics both programs compute, on the extended reals, index by index.
  W = ow + us @ vt   (a 4096 × 4096 matrix; the contraction over the rank, 16 terms);
  O = x @ W          (8192 × 4096; the contraction over 4096 terms).
  The kernel forms O's contraction in four consecutive runs of 1024 terms added one after the other onto zero; a sum
  over the extended reals may be regrouped freely (addition is commutative and associative there, infinities included),
  which is the one law that joins the two sides (`sum_four_blocks`).
-/
import Idealize.ShloMosaic.PureOps.Ideal
import Idealize.ShloMosaic.Lib.ValueIdx
import Mathlib.Algebra.BigOperators.Fin
import Mathlib.Logic.Equiv.Fin.Basic

noncomputable section

namespace Cert.Spec

open Idealize.ShloMosaic Idealize.ShloMosaic.ValueIdx

abbrev S8192x4096 : Shape := ⟨2, ![8192, 4096]⟩
abbrev S4096x4096 : Shape := ⟨2, ![4096, 4096]⟩
abbrev S4096x16 : Shape := ⟨2, ![4096, 16]⟩
abbrev S16x4096 : Shape := ⟨2, ![16, 4096]⟩

/-- W[k, j] = ow[k, j] + Σ_r us[k, r] · vt[r, j]. -/
def Wspec (ow : Vec Ideal S4096x4096 .f32) (us : Vec Ideal S4096x16 .f32) (vt : Vec Ideal S16x4096 .f32) : Vec Ideal S4096x4096 .bf16 :=
  fun i => ow i + ∑ r : Fin 16, us (ix2 (⟨(i 0).val, (i 0).isLt⟩ : Fin 4096) r) * vt (ix2 r (⟨(i 1).val, (i 1).isLt⟩ : Fin 4096))

/-- O[i, j] = Σ_k x[i, k] · w[k, j]. -/
def Ospec (x : Vec Ideal S8192x4096 .f32) (w : Vec Ideal S4096x4096 .bf16) : Vec Ideal S8192x4096 .f32 :=
  fun i => ∑ k : Fin 4096, x (ix2 (⟨(i 0).val, (i 0).isLt⟩ : Fin 8192) k) * w (ix2 k (⟨(i 1).val, (i 1).isLt⟩ : Fin 4096))

/-- A sum of 4096 extended reals is its four consecutive runs of 1024, added one after the other onto zero. -/
theorem sum_four_blocks (f : Fin 4096 → EReal) :
    ∑ k : Fin 4096, f k
      = (((0 + ∑ a : Fin 1024, f ⟨a.val, by omega⟩) + ∑ a : Fin 1024, f ⟨1024 + a.val, by omega⟩)
          + ∑ a : Fin 1024, f ⟨2048 + a.val, by omega⟩) + ∑ a : Fin 1024, f ⟨3072 + a.val, by omega⟩ := by
  -- k = 1024 · b + a with b < 4, a < 1024: the sum over k is the double sum over (b, a), the outer one four terms
  have e : ∀ (b : Fin 4) (a : Fin 1024) (h : 1024 * b.val + a.val < 4096),
      f (finProdFinEquiv (m := 4) (n := 1024) (b, a)) = f ⟨1024 * b.val + a.val, h⟩ :=
    fun b a h => congrArg f (Fin.ext (by simp only [finProdFinEquiv_apply_val]; omega))
  rw [← Equiv.sum_comp (finProdFinEquiv (m := 4) (n := 1024)) f, Fintype.sum_prod_type, Fin.sum_univ_four, zero_add]
  refine congrArg₂ (· + ·) (congrArg₂ (· + ·) (congrArg₂ (· + ·) ?_ ?_) ?_) ?_
  · exact Finset.sum_congr rfl fun a _ => (e 0 a (by have := a.isLt; simp; omega)).trans (congrArg f (Fin.ext (by simp)))
  · exact Finset.sum_congr rfl fun a _ => (e 1 a (by have := a.isLt; simp; omega)).trans (congrArg f (Fin.ext (by simp)))
  · exact Finset.sum_congr rfl fun a _ => (e 2 a (by have := a.isLt; simp; omega)).trans (congrArg f (Fin.ext (by simp)))
  · exact Finset.sum_congr rfl fun a _ => (e 3 a (by have := a.isLt; simp; omega)).trans (congrArg f (Fin.ext (by simp)))

end Cert.Spec

end
-- ==== Proof.KI.Value0.lean ====
/-
  The weight-build region's result at the ideal instance: the whole W array after the region is
  ow + us @ vt, index by index — every 512 × 512 block is written once, by the grid point that owns it, with the
  block of that one function.
-/
import proofs.«139975_j1829656068759_1_alg».proof.Proof.KI.Region0
import proofs.«139975_j1829656068759_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

/-! ## The block product at an index -/

/-- The zero offset of a whole-buffer rectangle. -/
theorem off_zero : (![0, 0] : Fin 2 → Nat) = fun _ => 0 := funext fun a => by fin_cases a <;> rfl

/-- The left operand's row is the output's row, -/
theorem lhs_blk_0 (i : S512x512.Idx) (q : dot_S512x16_S16x512_S512x512_1_0_0_1_n_n.contr.Idx) :
    (dot_S512x16_S16x512_S512x512_1_0_0_1_n_n.lhsIdx i q 0).val = (i 0).val := by
  unfold DotDims.lhsIdx
  rw [dif_neg (show ¬(0 : Fin S512x16.rank) ∈ dot_S512x16_S16x512_S512x512_1_0_0_1_n_n.lhsBatch by decide), dif_pos (show (0 : Fin S512x16.rank) ∈ dot_S512x16_S16x512_S512x512_1_0_0_1_n_n.lhsNonContracting by decide)]
  rfl
/-- its column the contraction index; -/
theorem lhs_blk_1 (i : S512x512.Idx) (q : dot_S512x16_S16x512_S512x512_1_0_0_1_n_n.contr.Idx) :
    (dot_S512x16_S16x512_S512x512_1_0_0_1_n_n.lhsIdx i q 1).val = (q ⟨0, by decide⟩).val :=
  dot_S512x16_S16x512_S512x512_1_0_0_1_n_n.lhsIdx_val_of_single rfl i q
/-- the right operand's row is the contraction index, -/
theorem rhs_blk_0 (i : S512x512.Idx) (q : dot_S512x16_S16x512_S512x512_1_0_0_1_n_n.contr.Idx) :
    (dot_S512x16_S16x512_S512x512_1_0_0_1_n_n.rhsIdx i q 0).val = (q ⟨0, by decide⟩).val :=
  dot_S512x16_S16x512_S512x512_1_0_0_1_n_n.rhsIdx_val_of_single rfl i q
/-- its column the output's column. -/
theorem rhs_blk_1 (i : S512x512.Idx) (q : dot_S512x16_S16x512_S512x512_1_0_0_1_n_n.contr.Idx) :
    (dot_S512x16_S16x512_S512x512_1_0_0_1_n_n.rhsIdx i q 1).val = (i 1).val := by
  unfold DotDims.rhsIdx
  rw [dif_neg (show ¬(1 : Fin S16x512.rank) ∈ dot_S512x16_S16x512_S512x512_1_0_0_1_n_n.rhsBatch by decide), dif_pos (show (1 : Fin S16x512.rank) ∈ dot_S512x16_S16x512_S512x512_1_0_0_1_n_n.rhsNonContracting by decide)]
  rfl

/-- Row `j 0`, column `k` of the scaled-u block. -/
abbrev lrow (j : S512x512.Idx) (k : Fin 16) : S512x16.Idx := fun a => match a with
  | ⟨0, _⟩ => ⟨(j 0).val, (j 0).isLt⟩
  | ⟨1, _⟩ => ⟨k.val, k.isLt⟩
/-- Row `k`, column `j 1` of the vt block. -/
abbrev rcol (j : S512x512.Idx) (k : Fin 16) : S16x512.Idx := fun a => match a with
  | ⟨0, _⟩ => ⟨k.val, k.isLt⟩
  | ⟨1, _⟩ => ⟨(j 1).val, (j 1).isLt⟩

/-- The block's payload at an index: the orig_weight element plus the 16-term product of the scaled-u row and the vt
    column (the cast to the same shape and the narrowing of the ideal values change nothing; the accumulator is zero). -/
theorem pay_apply (x1 : FVec Ideal S512x16 .f32) (x2 : FVec Ideal S16x512 .f32) (x0 : FVec Ideal S512x512 .f32) (j : S512x512.Idx) :
    (k0_pay1 (F := Ideal) x1 x2 x0) j = x0 j + ∑ k : Fin 16, x1 (lrow j k) * x2 (rcol j k) := by
  unfold k0_pay1
  rw [truncf_apply, addf_apply, shapeCast_self]
  refine congrArg (x0 j + ·) ?_
  simp only [matmul]
  rw [Ideal.matmul_constant_zero_apply, ← Equiv.sum_comp (contrEquiv1 dot_S512x16_S16x512_S512x512_1_0_0_1_n_n 16 rfl rfl).symm]
  refine Finset.sum_congr rfl fun k _ => ?_
  have hk := contrEquiv1_symm_val dot_S512x16_S16x512_S512x512_1_0_0_1_n_n 16 rfl rfl k
  have el : dot_S512x16_S16x512_S512x512_1_0_0_1_n_n.lhsIdx j ((contrEquiv1 dot_S512x16_S16x512_S512x512_1_0_0_1_n_n 16 rfl rfl).symm k) = lrow j k := funext fun a => Fin.ext (by
    match a with
    | ⟨0, _⟩ => exact lhs_blk_0 _ _
    | ⟨1, _⟩ => exact (lhs_blk_1 _ _).trans hk)
  have er : dot_S512x16_S16x512_S512x512_1_0_0_1_n_n.rhsIdx j ((contrEquiv1 dot_S512x16_S16x512_S512x512_1_0_0_1_n_n 16 rfl rfl).symm k) = rcol j k := funext fun a => Fin.ext (by
    match a with
    | ⟨0, _⟩ => exact (rhs_blk_0 _ _).trans hk
    | ⟨1, _⟩ => exact rhs_blk_1 _ _)
  rw [el, er]

/-! ## From blocks to the array -/

variable (V : (c : Dev nD) → (b : Ref sig .tc) → Buf (Elt Ideal) ((c : Thread nD τ).loc b))

/-- The printed index maps over the grid: the orig_weight block moves with the output block on both axes, the scaled-u
    block with its row and the vt block with its column (their other block index stays 0), and the output's block
    indices stay below 8. -/
theorem idx_facts : ∀ t : Fin cfg0.N,
    win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 7
    ∧ win0_3.index t (1 : Fin 2) ≤ 7 :=
  (by decide +kernel : ∀ t : Fin grid0.N, _)

/-- Every one of the 8 × 8 output blocks is some point's. -/
theorem idx_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- WHAT POINT `t` WRITES BACK is block `t` of W = ow + us @ vt of the arrays the region was entered with: the
    orig_weight block is read at the output's own index, the scaled-u block at its row and the vt block at its column. -/
theorem flushed_eq (c : Dev nD) (t : Fin cfg0.N) :
    (dat0 (F := Ideal) V c).flushed 3 t
      = ((cfg0.win 3).blk t).view.read (Elt Ideal) (Cert.Spec.Wspec (V c main_arg1) (V c main_v2) (V c main_arg4)) := by
  show (cfg0.win 3).cut (grid0.coords t) ((dat0 V c).after 3 t) = _
  rw [after0_3]
  unfold out0_3
  rw [View.canon_unit_zero off_zero]
  simp only [View.ld_unit_zero (S := S512x512) off_zero, View.ld_unit_zero (S := S512x16) off_zero, View.ld_unit_zero (S := S16x512) off_zero]
  obtain ⟨e0, e1, e2, e3, e4, e5, e6, e7⟩ := idx_facts t
  funext j
  show (k0_pay1 (F := Ideal) (iblk0 V c 1 t) (iblk0 V c 2 t) (iblk0 V c 0 t)) ((win0 3).xinj (grid0.coords t) j)
      = Cert.Spec.Wspec (V c main_arg1) (V c main_v2) (V c main_arg4) (((cfg0.win 3).blk t).view.emb j)
  refine (pay_apply _ _ _ _).trans ?_
  unfold Cert.Spec.Wspec
  have hj0 : (j 0).val < 512 := (j 0).isLt
  have hj1 : (j 1).val < 512 := (j 1).isLt
  have h0 : iblk0 V c 0 t ((win0 3).xinj (grid0.coords t) j) = V c main_arg1 (((cfg0.win 3).blk t).view.emb j) := by
    show V c main_arg1 (((cfg0.win 0).blk t).view.emb ((win0 3).xinj (grid0.coords t) j)) = _
    refine congrArg _ (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 512 + 1 * (j 1).val = win0_3.index t (1 : Fin 2) * 512 + 1 * (j 1).val; omega
  refine congrArg₂ (· + ·) h0 (Finset.sum_congr rfl fun k _ => ?_)
  have h1 : iblk0 V c 1 t (lrow ((win0 3).xinj (grid0.coords t) j) k)
      = V c main_v2 (ix2 (⟨((((cfg0.win 3).blk t).view.emb j) 0).val, ((((cfg0.win 3).blk t).view.emb j) 0).isLt⟩ : Fin 4096) k) := by
    show V c main_v2 (((cfg0.win 1).blk t).view.emb (lrow ((win0 3).xinj (grid0.coords t) j) k)) = _
    refine congrArg _ (funext fun a => Fin.ext ?_)
    match a with
    | ⟨0, _⟩ => show win0_1.index t (0 : Fin 2) * 512 + 1 * (j 0).val = win0_3.index t (0 : Fin 2) * 512 + 1 * (j 0).val; omega
    | ⟨1, _⟩ => show win0_1.index t (1 : Fin 2) * 16 + 1 * k.val = k.val; omega
  have h2 : iblk0 V c 2 t (rcol ((win0 3).xinj (grid0.coords t) j) k)
      = V c main_arg4 (ix2 k (⟨((((cfg0.win 3).blk t).view.emb j) 1).val, ((((cfg0.win 3).blk t).view.emb j) 1).isLt⟩ : Fin 4096)) := by
    show V c main_arg4 (((cfg0.win 2).blk t).view.emb (rcol ((win0 3).xinj (grid0.coords t) j) k)) = _
    refine congrArg _ (funext fun a => Fin.ext ?_)
    match a with
    | ⟨0, _⟩ => show win0_2.index t (0 : Fin 2) * 16 + 1 * k.val = k.val; omega
    | ⟨1, _⟩ => show win0_2.index t (1 : Fin 2) * 512 + 1 * (j 1).val = win0_3.index t (1 : Fin 2) * 512 + 1 * (j 1).val; omega
  exact congrArg₂ (· * ·) h1 h2

/-- An index of the array is in point `t`'s block iff each coordinate is in the block's range on its axis. -/
theorem mem_blk (t : Fin cfg0.N) (i : S4096x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v3).slice (win0_3.rect t)).set ↔ _
  rw [View.set_slice_whole, Rect.mem_set_unit]
  exact Iff.rfl

/-- The 64 blocks tile the array: index (r, s) lies in the block of the point whose block indices are (r / 512, s / 512),
    and every point writes its block back. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- After the weight-build region its output array holds W = ow + us @ vt of the arrays the region was entered with. -/
theorem final0 (c : Dev nD) :
    (dat0 (F := Ideal) V c).arrAt 3 cfg0.N = Cert.Spec.Wspec (V c main_arg1) (V c main_v2) (V c main_arg4) :=
  (dat0 (F := Ideal) V c).arrAt_eq_of_cover 3 (Cert.Spec.Wspec (V c main_arg1) (V c main_v2) (V c main_arg4))
    (fun t _ => flushed_eq V c t) cover

end Cert.KernelIdeal.Val0

end
-- ==== Proof.KI.Pieces1.lean ====
/-
  What the matmul body's stores leave, in closed form: in every control case the scratch ends holding
  acc + x_blk @ W_blk (the body's one arithmetic payload) of the input blocks and of what the scratch held before —
  the zero splat in the case that resets first —, and in the last-k case the output block ends holding the same.
  Each is read off the pieces that case's run found. At any float instance.
-/
import proofs.«139975_j1829656068759_1_alg».proof.Proof.KI.Region1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body are zero: each is of the whole buffer. -/
theorem off00_eq_zero : (![0, 0] : Fin 2 → Nat) = fun _ => 0 := funext fun a => by fin_cases a <;> rfl

/-- Case A (k = 0): the scratch is zeroed, then one block product is added. -/
theorem sout1_A_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .f32) (x1 : Vec F S1024x1024 .bf16) :
    sout1_A c i arg3 harg3 arg4 harg4 arg5 harg5 arg6 harg6 hc0 hc1 x0 x1 = k1_pay2 x0 (k1_pay1 (F := F)) x1 := by
  unfold sout1_A
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero (S := S1024x1024) off00_eq_zero,
    View.readCov_unit_zero (S := S1024x1024) _ off00_eq_zero]
  simp only [View.readAt_eq_ld, harg3.read_unread, harg4.read_unread,
    View.ld_unit_zero (S := S1024x1024) off00_eq_zero]

/-- Case B (k = 1, 2): one block product is added to what the point before left. -/
theorem sout1_B_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .f32) (x1 : Vec F S1024x1024 .bf16) (xs : Vec F S1024x1024 .f32) :
    sout1_B c i arg3 harg3 arg4 harg4 arg5 harg5 arg6 harg6 hc0 hc1 x0 x1 xs = k1_pay2 x0 xs x1 := by
  unfold sout1_B
  rw [View.read_writes_eq_canon _ _ _ (scover1_B c i arg3 harg3 arg4 harg4 arg5 harg5 arg6 harg6 hc0 hc1 x0 x1 xs)]
  unfold kernelRun1_B
  dsimp only
  sl_unfold_words
  rw [View.canon_unit_zero (S := S1024x1024) off00_eq_zero]
  simp only [View.readAt_eq_ld, harg3.read_unread, harg4.read_unread, harg6.read_unread,
    View.ld_unit_zero (S := S1024x1024) off00_eq_zero]

/-- Case C (k = 3): the same in the scratch, -/
theorem sout1_C_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs : Vec F S1024x1024 .f32) :
    sout1_C c i arg3 harg3 arg4 harg4 arg5 harg5 arg6 harg6 hc0 hc1 x0 x1 xs = k1_pay2 x0 xs x1 := by
  unfold sout1_C
  rw [View.read_writes_eq_canon _ _ _ (scover1_C c i arg3 harg3 arg4 harg4 arg5 harg5 arg6 harg6 hc0 hc1 x0 x1 xs)]
  unfold kernelRun1_C
  dsimp only
  sl_unfold_words
  rw [View.canon_unit_zero (S := S1024x1024) off00_eq_zero]
  simp only [View.readAt_eq_ld, harg3.read_unread, harg4.read_unread, harg6.read_unread,
    View.ld_unit_zero (S := S1024x1024) off00_eq_zero]

/-- and the output block is the scratch copied. -/
theorem out1_C_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .f32) (x1 : Vec F S1024x1024 .bf16) (xs : Vec F S1024x1024 .f32) :
    out1_C c i arg3 harg3 arg4 harg4 arg5 harg5 arg6 harg6 hc0 hc1 x0 x1 xs = k1_pay2 x0 xs x1 := by
  unfold out1_C
  rw [View.read_writes_eq_canon _ _ _ (cover1_C c i arg3 harg3 arg4 harg4 arg5 harg5 arg6 harg6 hc0 hc1 x0 x1 xs)]
  unfold kernelRun1_C
  dsimp only
  sl_unfold_words
  rw [View.canon_unit_zero (S := S1024x1024) off00_eq_zero,
    View.readCov_unit_zero (S := S1024x1024) _ off00_eq_zero]
  simp only [View.readAt_eq_ld, harg3.read_unread, harg4.read_unread, harg6.read_unread,
    View.ld_unit_zero (S := S1024x1024) off00_eq_zero]

end Cert.KernelIdeal.Fr

end
-- ==== Proof.KI.Value1.lean ====
/-
  The matmul region's result at the ideal instance: the whole output array after the region is x @ W, index by
  index. The scratch after point (i, j, k) holds the partial contraction over the first k + 1 runs of 1024 terms
  (an induction on the point); at k = 3 the body copies it to the output block (i, j), which is written back then.
-/
import proofs.«139975_j1829656068759_1_alg».proof.Proof.KI.Pieces1
import proofs.«139975_j1829656068759_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

/-! ## The body's payloads at an index -/

/-- The matmul's left operand index at output index `i` and contraction index `q`: row `i 0`, -/
theorem lhs_blk_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- column the contraction index; -/
theorem lhs_blk_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- the right operand's: row the contraction index, -/
theorem rhs_blk_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- column `i 1`. -/
theorem rhs_blk_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product at an index: the sum over the 1024 terms of the run. -/
theorem blockdot_apply (x0 : FVec Ideal S1024x1024 .bf16) (x1 : FVec Ideal S1024x1024 .bf16) (p q : Fin 1024) :
    FloatOps.matmul dot_S1024x1024_S1024x1024_S1024x1024_1_0_0_1_n_n none x0 x1 (constant S1024x1024 .f32 0x00000000#32) (ix2 p q)
      = ∑ a : Fin 1024, x0 (ix2 p a) * x1 (ix2 a q) := by
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_blk_0 _ _
    | ⟨1, _⟩ => exact (lhs_blk_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_blk_0 _ _).trans hk
    | ⟨1, _⟩ => exact rhs_blk_1 _ _)
  rw [el, er]

/-- The body's one arithmetic payload at an index: what the accumulator held there plus the block product there
    (the narrowing of the left block and the same-shape casts are the identity on the extended reals). -/
theorem pay2_apply (x0 xs : Vec Ideal S1024x1024 .f32) (x1 : Vec Ideal S1024x1024 .bf16) (p q : Fin 1024) :
    k1_pay2 (F := Ideal) x0 xs x1 (ix2 p q) = xs (ix2 p q) + ∑ a : Fin 1024, x0 (ix2 p a) * x1 (ix2 a q) := by
  unfold k1_pay2
  simp only [shapeCast_self]
  refine (addf_apply _ _ _).trans ?_
  refine congrArg (xs (ix2 p q) + ·) ?_
  exact blockdot_apply _ _ p q

/-- The reset payload at an index: zero. -/
theorem pay1_apply (p q : Fin 1024) : (k1_pay1 (F := Ideal)) (ix2 p q) = 0 := by
  unfold k1_pay1
  simp only [shapeCast_self]
  exact Ideal.ofBits_zero_f32

variable (V : (c : Dev nD) → (b : Ref sig .tc) → Buf (Elt Ideal) ((c : Thread nD τ).loc b))

/-! ## The arrays and the blocks, at their literal types -/

/-- The left array x (8192 × 4096) as the region finds it, -/
abbrev xarr (c : Dev nD) : Vec Ideal Cert.Spec.S8192x4096 .f32 := V c main_arg0
/-- the right array W (4096 × 4096), -/
abbrev warr (c : Dev nD) : Vec Ideal Cert.Spec.S4096x4096 .bf16 := V c main_v3
/-- x's block at point `t`, -/
abbrev xblk (c : Dev nD) (t : Fin cfg1.N) : Vec Ideal S1024x1024 .f32 := iblk1 V c 0 t
/-- W's block at point `t`. -/
abbrev wblk (c : Dev nD) (t : Fin cfg1.N) : Vec Ideal S1024x1024 .bf16 := iblk1 V c 1 t

/-- The three windows' block indices at point t = (4 i + j) 4 + k: (i, k), (k, j), (i, j). -/
theorem idx_facts : ∀ t : Fin cfg1.N, win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = t.val / 16 ∧ win1_2.index t (1 : Fin 2) = t.val / 4 % 4 :=
  (by decide +kernel : ∀ t : Fin grid1.N, _)

/-- x's block (i, k) at (p, a) is x at (1024 i + p, 1024 k + a). -/
theorem xblk_apply (c : Dev nD) (t : Fin cfg1.N) (i k : ℕ) (hi : i < 8) (hk : k < 4) (hti : t.val / 16 = i) (htk : t.val % 4 = k)
    (p a : Fin 1024) :
    xblk V c t (ix2 p a) = xarr V c (ix2 (⟨1024 * i + p.val, by omega⟩ : Fin 8192) (⟨1024 * k + a.val, by omega⟩ : Fin 4096)) := by
  obtain ⟨e0, e1, -⟩ := idx_facts t
  show ((cfg1.win 0).blk t).view.read (Elt Ideal) (V c (Pipeline.arrRef spec1 0)) (ix2 p a) = _
  rw [View.read_apply]
  show V c main_arg0 _ = V c main_arg0 _
  congr 1
  funext d
  apply Fin.ext
  match d with
  | ⟨0, _⟩ => show win1_0.index t (0 : Fin 2) * 1024 + 1 * p.val = 1024 * i + p.val; rw [e0, hti]; omega
  | ⟨1, _⟩ => show win1_0.index t (1 : Fin 2) * 1024 + 1 * a.val = 1024 * k + a.val; rw [e1, htk]; omega

/-- W's block (k, j) at (a, q) is W at (1024 k + a, 1024 j + q). -/
theorem wblk_apply (c : Dev nD) (t : Fin cfg1.N) (j k : ℕ) (hj : j < 4) (hk : k < 4) (htj : t.val / 4 % 4 = j) (htk : t.val % 4 = k)
    (a q : Fin 1024) :
    wblk V c t (ix2 a q) = warr V c (ix2 (⟨1024 * k + a.val, by omega⟩ : Fin 4096) (⟨1024 * j + q.val, by omega⟩ : Fin 4096)) := by
  obtain ⟨-, -, e0, e1, -⟩ := idx_facts t
  show ((cfg1.win 1).blk t).view.read (Elt Ideal) (V c (Pipeline.arrRef spec1 1)) (ix2 a q) = _
  rw [View.read_apply]
  show V c main_v3 _ = V c main_v3 _
  congr 1
  funext d
  apply Fin.ext
  match d with
  | ⟨0, _⟩ => show win1_1.index t (0 : Fin 2) * 1024 + 1 * a.val = 1024 * k + a.val; rw [e0, htk]; omega
  | ⟨1, _⟩ => show win1_1.index t (1 : Fin 2) * 1024 + 1 * q.val = 1024 * j + q.val; rw [e1, htj]; omega

/-! ## The partial contractions -/

/-- Run `k` of the contraction at (r, s): its 1024 terms 1024 k ≤ · < 1024 (k + 1). -/
def run (x : Vec Ideal Cert.Spec.S8192x4096 .f32) (w : Vec Ideal Cert.Spec.S4096x4096 .bf16) (r : Fin 8192) (s : Fin 4096)
    (k : ℕ) (hk : k < 4) : EReal :=
  ∑ a : Fin 1024, x (ix2 r (⟨1024 * k + a.val, by omega⟩ : Fin 4096)) * w (ix2 (⟨1024 * k + a.val, by omega⟩ : Fin 4096) s)

/-- The runs 0, …, k added one after the other onto zero. -/
def acc (x : Vec Ideal Cert.Spec.S8192x4096 .f32) (w : Vec Ideal Cert.Spec.S4096x4096 .bf16) (r : Fin 8192) (s : Fin 4096) :
    (k : ℕ) → k < 4 → EReal
  | 0, h => 0 + run x w r s 0 h
  | k + 1, h => acc x w r s k (Nat.lt_of_succ_lt h) + run x w r s (k + 1) h

/-- One block product at (p, q) is run `k` of the contraction at (1024 i + p, 1024 j + q). -/
theorem blocks_run (c : Dev nD) (t : Fin cfg1.N) (i j k : ℕ) (hi : i < 8) (hj : j < 4) (hk : k < 4)
    (hti : t.val / 16 = i) (htj : t.val / 4 % 4 = j) (htk : t.val % 4 = k) (p q : Fin 1024) :
    ∑ a : Fin 1024, xblk V c t (ix2 p a) * wblk V c t (ix2 a q)
      = run (xarr V c) (warr V c) (⟨1024 * i + p.val, by omega⟩ : Fin 8192) (⟨1024 * j + q.val, by omega⟩ : Fin 4096) k hk := by
  unfold run
  refine Finset.sum_congr rfl fun a _ => ?_
  rw [xblk_apply V c t i k hi hk hti htk p a, wblk_apply V c t j k hj hk htj htk a q]

/-! ## The scratch after each point -/

/-- After point (4 i + j) 4 + k the scratch at (p, q) holds the runs 0, …, k of the contraction at
    (1024 i + p, 1024 j + q), by induction on k. -/
theorem scratch_at (c : Dev nD) (i j : ℕ) (hi : i < 8) (hj : j < 4) :
    ∀ (k : ℕ) (hk : k < 4) (n : ℕ) (hn : n < cfg1.N), n = (4 * i + j) * 4 + k → ∀ p q : Fin 1024,
      (outsAt1 V c n hn).2 (ix2 p q)
        = acc (xarr V c) (warr V c) (⟨1024 * i + p.val, by omega⟩ : Fin 8192) (⟨1024 * j + q.val, by omega⟩ : Fin 4096) k hk
  | 0, hk, n, hn, e, p, q => by
    have h0 : (⟨n, hn⟩ : Fin cfg1.N).val % 4 = 0 := by show n % 4 = 0; omega
    have h1 : ¬(⟨n, hn⟩ : Fin cfg1.N).val % 4 = 3 := by show ¬n % 4 = 3; omega
    rw [outsAt1_A V c ⟨n, hn⟩ h0 h1]
    dsimp only
    refine (congrFun (sout1_A_eq (F := Ideal) c (grid1.coords ⟨n, hn⟩) (ms1_0 ⟨n, hn⟩) (hs1_0 ⟨n, hn⟩) (ms1_1 ⟨n, hn⟩) (hs1_1 ⟨n, hn⟩)
      (ms1_2 ⟨n, hn⟩) (hs1_2 ⟨n, hn⟩) scM1 (Memref.isWhole_whole _) ((hcond1_0 ⟨n, hn⟩).mpr h0) (fun h => h1 ((hcond1_1 ⟨n, hn⟩).mp h))
      (xblk V c ⟨n, hn⟩) (wblk V c ⟨n, hn⟩)) (ix2 p q)).trans ?_
    refine (pay2_apply (xblk V c ⟨n, hn⟩) (k1_pay1 (F := Ideal)) (wblk V c ⟨n, hn⟩) p q).trans ?_
    rw [pay1_apply p q, blocks_run V c ⟨n, hn⟩ i j 0 hi hj hk (by show n / 16 = i; omega) (by show n / 4 % 4 = j; omega)
      (by show n % 4 = 0; omega) p q]
    rfl
  | k + 1, hk, n, hn, e, p, q => by
    have h0 : ¬(⟨n, hn⟩ : Fin cfg1.N).val % 4 = 0 := by show ¬n % 4 = 0; omega
    have ih : ∀ p' q' : Fin 1024, (outsAt1 V c ((⟨n, hn⟩ : Fin cfg1.N).val - 1) (Nat.lt_of_le_of_lt (Nat.sub_le _ _) (⟨n, hn⟩ : Fin cfg1.N).isLt)).2 (ix2 p' q')
        = acc (xarr V c) (warr V c) (⟨1024 * i + p'.val, by omega⟩ : Fin 8192) (⟨1024 * j + q'.val, by omega⟩ : Fin 4096) k (Nat.lt_of_succ_lt hk) :=
      fun p' q' => scratch_at c i j hi hj k (Nat.lt_of_succ_lt hk) _ _ (by show n - 1 = _; omega) p' q'
    have hb := blocks_run V c ⟨n, hn⟩ i j (k + 1) hi hj hk (by show n / 16 = i; omega) (by show n / 4 % 4 = j; omega)
      (by show n % 4 = k + 1; omega) p q
    by_cases h1 : (⟨n, hn⟩ : Fin cfg1.N).val % 4 = 3
    · rw [outsAt1_C V c ⟨n, hn⟩ h0 h1]
      dsimp only
      refine (congrFun (sout1_C_eq (F := Ideal) c (grid1.coords ⟨n, hn⟩) (ms1_0 ⟨n, hn⟩) (hs1_0 ⟨n, hn⟩) (ms1_1 ⟨n, hn⟩) (hs1_1 ⟨n, hn⟩)
        (ms1_2 ⟨n, hn⟩) (hs1_2 ⟨n, hn⟩) scM1 (Memref.isWhole_whole _) (fun h => h0 ((hcond1_0 ⟨n, hn⟩).mp h)) ((hcond1_1 ⟨n, hn⟩).mpr h1)
        (xblk V c ⟨n, hn⟩) (wblk V c ⟨n, hn⟩)
        (outsAt1 V c ((⟨n, hn⟩ : Fin cfg1.N).val - 1) (Nat.lt_of_le_of_lt (Nat.sub_le _ _) (⟨n, hn⟩ : Fin cfg1.N).isLt)).2) (ix2 p q)).trans ?_
      refine (pay2_apply (xblk V c ⟨n, hn⟩) _ (wblk V c ⟨n, hn⟩) p q).trans ?_
      exact congrArg₂ (· + ·) (ih p q) hb
    · rw [outsAt1_B V c ⟨n, hn⟩ h0 h1]
      dsimp only
      refine (congrFun (sout1_B_eq (F := Ideal) c (grid1.coords ⟨n, hn⟩) (ms1_0 ⟨n, hn⟩) (hs1_0 ⟨n, hn⟩) (ms1_1 ⟨n, hn⟩) (hs1_1 ⟨n, hn⟩)
        (ms1_2 ⟨n, hn⟩) (hs1_2 ⟨n, hn⟩) scM1 (Memref.isWhole_whole _) (fun h => h0 ((hcond1_0 ⟨n, hn⟩).mp h)) (fun h => h1 ((hcond1_1 ⟨n, hn⟩).mp h))
        (xblk V c ⟨n, hn⟩) (wblk V c ⟨n, hn⟩)
        (outsAt1 V c ((⟨n, hn⟩ : Fin cfg1.N).val - 1) (Nat.lt_of_le_of_lt (Nat.sub_le _ _) (⟨n, hn⟩ : Fin cfg1.N).isLt)).2) (ix2 p q)).trans ?_
      refine (pay2_apply (xblk V c ⟨n, hn⟩) _ (wblk V c ⟨n, hn⟩) p q).trans ?_
      exact congrArg₂ (· + ·) (ih p q) hb

/-- At the last k the output block holds the same: all four runs. -/
theorem out_at (c : Dev nD) (i j : ℕ) (hi : i < 8) (hj : j < 4) (n : ℕ) (hn : n < cfg1.N) (e : n = (4 * i + j) * 4 + 3)
    (p q : Fin 1024) :
    (outsAt1 V c n hn).1 (ix2 p q)
      = acc (xarr V c) (warr V c) (⟨1024 * i + p.val, by omega⟩ : Fin 8192) (⟨1024 * j + q.val, by omega⟩ : Fin 4096) 3 (by decide) := by
  have h0 : ¬(⟨n, hn⟩ : Fin cfg1.N).val % 4 = 0 := by show ¬n % 4 = 0; omega
  have h1 : (⟨n, hn⟩ : Fin cfg1.N).val % 4 = 3 := by show n % 4 = 3; omega
  have ih : (outsAt1 V c ((⟨n, hn⟩ : Fin cfg1.N).val - 1) (Nat.lt_of_le_of_lt (Nat.sub_le _ _) (⟨n, hn⟩ : Fin cfg1.N).isLt)).2 (ix2 p q)
      = acc (xarr V c) (warr V c) (⟨1024 * i + p.val, by omega⟩ : Fin 8192) (⟨1024 * j + q.val, by omega⟩ : Fin 4096) 2 (by decide) :=
    scratch_at V c i j hi hj 2 (by decide) _ _ (by show n - 1 = _; omega) p q
  have hb := blocks_run V c ⟨n, hn⟩ i j 3 hi hj (by decide) (by show n / 16 = i; omega) (by show n / 4 % 4 = j; omega)
    (by show n % 4 = 3; omega) p q
  rw [outsAt1_C V c ⟨n, hn⟩ h0 h1]
  dsimp only
  refine (congrFun (out1_C_eq (F := Ideal) c (grid1.coords ⟨n, hn⟩) (ms1_0 ⟨n, hn⟩) (hs1_0 ⟨n, hn⟩) (ms1_1 ⟨n, hn⟩) (hs1_1 ⟨n, hn⟩)
    (ms1_2 ⟨n, hn⟩) (hs1_2 ⟨n, hn⟩) scM1 (Memref.isWhole_whole _) (fun h => h0 ((hcond1_0 ⟨n, hn⟩).mp h)) ((hcond1_1 ⟨n, hn⟩).mpr h1)
    (xblk V c ⟨n, hn⟩) (wblk V c ⟨n, hn⟩)
    (outsAt1 V c ((⟨n, hn⟩ : Fin cfg1.N).val - 1) (Nat.lt_of_le_of_lt (Nat.sub_le _ _) (⟨n, hn⟩ : Fin cfg1.N).isLt)).2) (ix2 p q)).trans ?_
  refine (pay2_apply (xblk V c ⟨n, hn⟩) _ (wblk V c ⟨n, hn⟩) p q).trans ?_
  exact congrArg₂ (· + ·) ih hb

/-! ## The four runs are the whole contraction -/

/-- Run `k` with its 1024 positions named by any `g` that lists them. -/
theorem run_eq (x : Vec Ideal Cert.Spec.S8192x4096 .f32) (w : Vec Ideal Cert.Spec.S4096x4096 .bf16) (r : Fin 8192) (s : Fin 4096)
    (k : ℕ) (hk : k < 4) (g : Fin 1024 → Fin 4096) (hg : ∀ a, (g a).val = 1024 * k + a.val) :
    run x w r s k hk = ∑ a : Fin 1024, x (ix2 r (g a)) * w (ix2 (g a) s) := by
  unfold run
  refine Finset.sum_congr rfl fun a _ => ?_
  rw [show (⟨1024 * k + a.val, by omega⟩ : Fin 4096) = g a from Fin.ext (hg a).symm]

/-- All four runs, added in order onto zero, are the contraction over the 4096 terms: a regrouping of the sum. -/
theorem acc_three (x : Vec Ideal Cert.Spec.S8192x4096 .f32) (w : Vec Ideal Cert.Spec.S4096x4096 .bf16) (r : Fin 8192) (s : Fin 4096) :
    acc x w r s 3 (by decide) = ∑ k : Fin 4096, x (ix2 r k) * w (ix2 k s) := by
  rw [Cert.Spec.sum_four_blocks (fun k => x (ix2 r k) * w (ix2 k s))]
  show (((0 + run x w r s 0 (by decide)) + run x w r s 1 (by decide)) + run x w r s 2 (by decide)) + run x w r s 3 (by decide) = _
  rw [run_eq x w r s 0 (by decide) (fun a => ⟨a.val, by omega⟩) (fun a => by show a.val = 1024 * 0 + a.val; omega),
    run_eq x w r s 1 (by decide) (fun a => ⟨1024 + a.val, by omega⟩) (fun a => by show 1024 + a.val = 1024 * 1 + a.val; omega),
    run_eq x w r s 2 (by decide) (fun a => ⟨2048 + a.val, by omega⟩) (fun a => by show 2048 + a.val = 1024 * 2 + a.val; omega),
    run_eq x w r s 3 (by decide) (fun a => ⟨3072 + a.val, by omega⟩) (fun a => by show 3072 + a.val = 1024 * 3 + a.val; omega)]

/-- The specification at an index whose coordinates are (r, s). -/
theorem Ospec_at (x : Vec Ideal Cert.Spec.S8192x4096 .f32) (w : Vec Ideal Cert.Spec.S4096x4096 .bf16) (idx : Cert.Spec.S8192x4096.Idx)
    (r : Fin 8192) (s : Fin 4096) (h0 : (idx 0).val = r.val) (h1 : (idx 1).val = s.val) :
    Cert.Spec.Ospec x w idx = acc x w r s 3 (by decide) := by
  rw [acc_three]
  show ∑ k : Fin 4096, x (ix2 (⟨(idx 0).val, (idx 0).isLt⟩ : Fin 8192) k) * w (ix2 k (⟨(idx 1).val, (idx 1).isLt⟩ : Fin 4096)) = _
  rw [show (⟨(idx 0).val, (idx 0).isLt⟩ : Fin 8192) = r from Fin.ext h0, show (⟨(idx 1).val, (idx 1).isLt⟩ : Fin 4096) = s from Fin.ext h1]

/-! ## From the blocks to the array -/

/-- What a point with k = 3 writes back is its block of x @ W. -/
theorem flushed_eq (c : Dev nD) (t : Fin cfg1.N) (hf : (cfg1.win 2).flush t = true) :
    (dat1 (F := Ideal) V c).flushed 2 t
      = ((cfg1.win 2).blk t).view.read (Elt Ideal) (Cert.Spec.Ospec (V c main_arg0) (V c main_v3)) := by
  have h3 : t.val % 4 = 3 := (flush1_2 t).mp hf
  have hN : t.val < 128 := lt_of_lt_of_eq t.isLt (show cfg1.N = 128 from N_1)
  obtain ⟨-, -, -, -, e0, e1⟩ := idx_facts t
  show (cfg1.win 2).cut (grid1.coords t) ((dat1 (F := Ideal) V c).after 2 t) = _
  rw [after1_2]
  funext y
  rw [View.read_apply]
  have hy0 : (y 0).val < 1024 := (y 0).isLt
  have hy1 : (y 1).val < 1024 := (y 1).isLt
  have eidx : (cfg1.win 2).xinj (grid1.coords t) y = ix2 (⟨(y 0).val, hy0⟩ : Fin 1024) (⟨(y 1).val, hy1⟩ : Fin 1024) :=
    funext fun a => match a with | ⟨0, _⟩ => rfl | ⟨1, _⟩ => rfl
  show (outsAt1 V c t.val t.isLt).1 ((cfg1.win 2).xinj (grid1.coords t) y) = _
  rw [eidx, out_at V c (t.val / 16) (t.val / 4 % 4) (by omega) (by omega) t.val t.isLt (by omega) _ _]
  symm
  refine Ospec_at _ _ _ _ _ ?_ ?_
  · show win1_2.index t (0 : Fin 2) * 1024 + 1 * (y 0).val = 1024 * (t.val / 16) + (y 0).val
    rw [e0]; omega
  · show win1_2.index t (1 : Fin 2) * 1024 + 1 * (y 1).val = 1024 * (t.val / 4 % 4) + (y 1).val
    rw [e1]; omega

/-- Every index (r, s) of the output array is in the block of the point (r / 1024, s / 1024, 3), which writes back. -/
theorem cover (idx : Cert.Spec.S8192x4096.Idx) :
    ∃ t : Fin cfg1.N, (cfg1.win 2).flush t = true ∧ idx ∈ ((cfg1.win 2).blk t).view.set := by
  have h0 : (idx 0).val < 8192 := (idx 0).isLt
  have h1 : (idx 1).val < 4096 := (idx 1).isLt
  have hN : cfg1.N = 128 := N_1
  obtain ⟨t, ht⟩ : ∃ t : Fin cfg1.N, t.val = (4 * ((idx 0).val / 1024) + (idx 1).val / 1024) * 4 + 3 :=
    ⟨⟨(4 * ((idx 0).val / 1024) + (idx 1).val / 1024) * 4 + 3, by rw [hN]; omega⟩, rfl⟩
  obtain ⟨-, -, -, -, e0, e1⟩ := idx_facts t
  refine ⟨t, (flush1_2 t).mpr (by omega), ?_⟩
  show idx ∈ ((View.whole main_v4).slice (win1_2.rect t)).set
  rw [View.set_slice_whole, Rect.mem_set_unit]
  intro a
  match a with
  | ⟨0, _⟩ =>
    show win1_2.index t (0 : Fin 2) * 1024 ≤ (idx 0).val ∧ (idx 0).val < win1_2.index t (0 : Fin 2) * 1024 + 1024
    rw [e0]; omega
  | ⟨1, _⟩ =>
    show win1_2.index t (1 : Fin 2) * 1024 ≤ (idx 1).val ∧ (idx 1).val < win1_2.index t (1 : Fin 2) * 1024 + 1024
    rw [e1]; omega

/-- After the matmul region its output array holds x @ W of the arrays the region was entered with. -/
theorem final1 (c : Dev nD) :
    (dat1 (F := Ideal) V c).arrAt 2 cfg1.N = Cert.Spec.Ospec (V c main_arg0) (V c main_v3) :=
  (dat1 (F := Ideal) V c).arrAt_eq_of_cover 2 (Cert.Spec.Ospec (V c main_arg0) (V c main_v3)) (fun t hf => flushed_eq V c t hf) cover

end Cert.KernelIdeal.Val1

end
-- ==== Proof.KI.Result.lean ====
/-
  The idealized kernel's result, as a function of the launch memory: x @ (ow + us @ vt), with us the scaled u the
  three host operations compute before the first pallas_call. The weight-build region's output array is W of the
  arrays it was entered with; the matmul region is entered with x untouched and that W, and leaves x @ W.
-/
import proofs.«139975_j1829656068759_1_alg».proof.Proof.KI.Run
import proofs.«139975_j1829656068759_1_alg».proof.Proof.KI.Value0
import proofs.«139975_j1829656068759_1_alg».proof.Proof.KI.Value1

set_option maxRecDepth 16384

noncomputable section

namespace Cert.KernelIdeal.Val

open Cert.KernelIdeal Cert.KernelIdeal.Gen Cert.KernelIdeal.Fr
open Idealize.ShloMosaic Idealize.ShloMosaic.TcCoe
open Idealize.SL Idealize.SL.Sem

variable (m : (ℓ : Loc nD τ sig) → Buf (Elt Ideal) ℓ)

/-- The scaled u: u times s broadcast along the rows. -/
def usOf (u : FVec Ideal S4096x16 .f32) (s : FVec Ideal S16 .f32) : FVec Ideal S4096x16 .f32 :=
  mulf u (broadcastInDim S4096x16 ![0, 1] bcast_S1x16_S4096x16_0_1 (broadcastInDim S1x16 ![1] bcast_S16_S1x16_1 s))

/-- What the host stretch leaves in its last buffer: the scaled u of the launch arrays. -/
theorem En1_v2 (c : Dev nD) :
    (En1 (F := Ideal) m c main_v2 : (⟨S4096x16, .f32⟩ : BufTy).Contents (Elt Ideal))
      = usOf (m ((c : Thread nD τ).loc main_arg2)) (m ((c : Thread nD τ).loc main_arg3)) := by
  show StableHlo.after hostOps0 (fun b => m (c, b)) (Proc.devRef .tc main_v2) = _
  unfold usOf
  after_results

/-- The result array after the run, from the launch arrays. -/
theorem result_eq (c : Dev nD) :
    (dat1 (F := Ideal) (En2 m) c).arrAt 2 cfg1.N
      = Cert.Spec.Ospec (m ((c : Thread nD τ).loc main_arg0))
          (Cert.Spec.Wspec (m ((c : Thread nD τ).loc main_arg1)) (usOf (m ((c : Thread nD τ).loc main_arg2)) (m ((c : Thread nD τ).loc main_arg3)))
            (m ((c : Thread nD τ).loc main_arg4))) := by
  rw [Cert.KernelIdeal.Val1.final1 (En2 m) c]
  have hx : En2 m c main_arg0 = m ((c : Thread nD τ).loc main_arg0) :=
    (Bf2_of_ne m c main_arg0 (by decide)).trans (Bf1_of_arg m c main_arg0 (by decide))
  have hw : En2 m c main_v3 = Cert.Spec.Wspec (m ((c : Thread nD τ).loc main_arg1))
      (usOf (m ((c : Thread nD τ).loc main_arg2)) (m ((c : Thread nD τ).loc main_arg3))) (m ((c : Thread nD τ).loc main_arg4)) := by
    refine (Bf2_arr m c 3).trans ((Cert.KernelIdeal.Val0.final0 (En1 m) c).trans ?_)
    rw [show En1 m c main_arg1 = m ((c : Thread nD τ).loc main_arg1) from Bf1_of_arg m c main_arg1 (by decide),
      show En1 m c main_arg4 = m ((c : Thread nD τ).loc main_arg4) from Bf1_of_arg m c main_arg4 (by decide), En1_v2 m c]
  rw [hx, hw]

end Cert.KernelIdeal.Val

end
-- ==== Proof.RefValue.lean ====
/-
  The reference at the ideal instance, index by index: its result is x @ (ow + us @ vt) with us the scaled u —
  the two host dot_generals read as sums, the add as the sum of its operands.
-/
import proofs.«139975_j1829656068759_1_alg».proof.Proof.Gen.ReferenceIdeal.Read
import proofs.«139975_j1829656068759_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's last stage is `Ospec x (Wspec ow us vt)`, where `us` is its third stage (u scaled column by column). -/
theorem ref_eq (x0 : (⟨S8192x4096, .f32⟩ : BufTy).Contents (Elt Ideal)) (x1 : (⟨S4096x4096, .f32⟩ : BufTy).Contents (Elt Ideal))
    (x2 : (⟨S4096x16, .f32⟩ : BufTy).Contents (Elt Ideal)) (x3 : (⟨S16, .f32⟩ : BufTy).Contents (Elt Ideal))
    (x4 : (⟨S16x4096, .f32⟩ : BufTy).Contents (Elt Ideal)) :
    val_main_v5 (F := Ideal) x0 x1 x2 x3 x4 = Cert.Spec.Ospec x0 (Cert.Spec.Wspec x1 (val_main_v2 (F := Ideal) x2 x3) x4) := by
  funext i
  rw [val_main_v5_apply]
  unfold Cert.Spec.Ospec
  refine Finset.sum_congr rfl fun k _ => ?_
  have e1 : lidx_main_v5 i k = ix2 (⟨(i 0).val, (i 0).isLt⟩ : Fin 8192) k :=
    funext fun a => Fin.ext (by match a with | ⟨0, _⟩ => rfl | ⟨1, _⟩ => rfl)
  have e2 : ridx_main_v5 i k = ix2 k (⟨(i 1).val, (i 1).isLt⟩ : Fin 4096) :=
    funext fun a => Fin.ext (by match a with | ⟨0, _⟩ => rfl | ⟨1, _⟩ => rfl)
  rw [e1, e2, val_main_v4_apply, val_main_v3_apply]
  unfold Cert.Spec.Wspec
  refine congrArg (x0 (ix2 (⟨(i 0).val, (i 0).isLt⟩ : Fin 8192) k) * ·) ?_
  refine congrArg (x1 (ix2 k (⟨(i 1).val, (i 1).isLt⟩ : Fin 4096)) + ·) ?_
  refine Finset.sum_congr rfl fun r _ => ?_
  have e3 : lidx_main_v3 (ix2 k (⟨(i 1).val, (i 1).isLt⟩ : Fin 4096)) r = ix2 (⟨((ix2 k (⟨(i 1).val, (i 1).isLt⟩ : Fin 4096) : S4096x4096.Idx) 0).val, ((ix2 k (⟨(i 1).val, (i 1).isLt⟩ : Fin 4096) : S4096x4096.Idx) 0).isLt⟩ : Fin 4096) r :=
    funext fun a => Fin.ext (by match a with | ⟨0, _⟩ => rfl | ⟨1, _⟩ => rfl)
  have e4 : ridx_main_v3 (ix2 k (⟨(i 1).val, (i 1).isLt⟩ : Fin 4096)) r = ix2 r (⟨((ix2 k (⟨(i 1).val, (i 1).isLt⟩ : Fin 4096) : S4096x4096.Idx) 1).val, ((ix2 k (⟨(i 1).val, (i 1).isLt⟩ : Fin 4096) : S4096x4096.Idx) 1).isLt⟩ : Fin 4096) :=
    funext fun a => Fin.ext (by match a with | ⟨0, _⟩ => rfl | ⟨1, _⟩ => rfl)
  rw [e3, e4]

end Cert.ReferenceIdeal.RefValue

end
-- ==== Proof.lean ====
/-
  The certificate of the LoRA-merged linear layer: out = x @ (orig_weight + (lora_u · lora_s) @ lora_vt).
  The kernel scales u on the host, builds W block by block in a first pallas_call, and in a second one contracts x
  against W in four runs of 1024 terms accumulated in a scratch from zero; the reference is the two matrix products
  written out. On the extended reals both are Σ_k x[i,k] · (ow[k,j] + Σ_r us[k,r] · vt[r,j]): the kernel's grouping of
  the sum over k is a regrouping of a finite sum, which holds there without any finiteness hypothesis, and the
  changes of float format are the identity. Each program's frame (it terminates, faults nowhere, leaves its arguments
  as launched) comes from its run: the two kernel programs' from the run of their three segments (host stretch,
  weight-build region, matmul region), the reference's from its six host operations.
-/
import proofs.«139975_j1829656068759_1_alg».proof.Defs
import proofs.«139975_j1829656068759_1_alg».proof.Proof.Gen.Kernel
import proofs.«139975_j1829656068759_1_alg».proof.Proof.Gen.KernelIdeal
import proofs.«139975_j1829656068759_1_alg».proof.Proof.Gen.ReferenceIdeal
import proofs.«139975_j1829656068759_1_alg».proof.Proof.Gen.Pre_finite_inputs
import proofs.«139975_j1829656068759_1_alg».proof.Proof.Gen.ReferenceIdeal.Run
import proofs.«139975_j1829656068759_1_alg».proof.Proof.Gen.ReferenceIdeal.Read
import proofs.«139975_j1829656068759_1_alg».proof.Proof.K.Run
import proofs.«139975_j1829656068759_1_alg».proof.Proof.KI.Run
import proofs.«139975_j1829656068759_1_alg».proof.Proof.KI.Result
import proofs.«139975_j1829656068759_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with x @ (ow + us @ vt) of their (agreeing) arguments. -/
theorem algebraic : Cert.algebraic_KernelIdeal_ReferenceIdeal := by
  intro m ρ m' ρ' _ hagree
  refine ⟨fun c => Cert.Spec.Ospec (m ((c.tc : Thread Cert.KernelIdeal.nD Cert.KernelIdeal.τ).loc Cert.KernelIdeal.main_arg0))
      (Cert.Spec.Wspec (m ((c.tc : Thread Cert.KernelIdeal.nD Cert.KernelIdeal.τ).loc Cert.KernelIdeal.main_arg1))
        (Cert.KernelIdeal.Val.usOf (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        (m ((c.tc : Thread Cert.KernelIdeal.nD Cert.KernelIdeal.τ).loc Cert.KernelIdeal.main_arg4))), ?_, ?_⟩
  · exact (θ_run Cert.KernelIdeal.defs _ _).mono (fun _ h c => ⟨(h c).1.trans (Cert.KernelIdeal.Val.result_eq m c), (h c).2⟩)
      (Cert.KernelIdeal.Fr.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v5_eq _ _ _ _ _).trans (Cert.ReferenceIdeal.RefValue.ref_eq _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
